-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x4096x1024 .f32) (main_arg1 : FVec F S256x1024 .f32) (main_arg2 : FVec F S256x1024 .f32) (main_arg3 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x4096x1024 : Shape := ⟨3, ![8, 4096, 1024]⟩
abbrev S256x1024 : Shape := ⟨2, ![256, 1024]⟩
abbrev S1024x1024 : Shape := ⟨2, ![1024, 1024]⟩
abbrev S1536x1024 : Shape := ⟨2, ![1536, 1024]⟩
abbrev S8x4096x256 : Shape := ⟨3, ![8, 4096, 256]⟩
abbrev S1x512x1024 : Shape := ⟨3, ![1, 512, 1024]⟩
abbrev S1x512x256 : Shape := ⟨3, ![1, 512, 256]⟩
abbrev S512x1024 : Shape := ⟨2, ![512, 1024]⟩
abbrev S1024x1536 : Shape := ⟨2, ![1024, 1536]⟩
abbrev S512x1536 : Shape := ⟨2, ![512, 1536]⟩
abbrev S512x256 : Shape := ⟨2, ![512, 256]⟩
abbrev S1x1024x256 : Shape := ⟨3, ![1, 1024, 256]⟩
abbrev S1x1024x1024 : Shape := ⟨3, ![1, 1024, 1024]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S1536x1024, .f32⟩
  | .hbm, ⟨5, _⟩ => ⟨S1536x1024, .bf16⟩
  | .hbm, ⟨6, _⟩ => ⟨S8x4096x256, .bf16⟩
  | .hbm, ⟨7, _⟩ => ⟨S8x4096x256, .bf16⟩
  | .hbm, ⟨8, _⟩ => ⟨S8x4096x1024, .bf16⟩
  | .hbm, ⟨9, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1536x1024, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_15 : BitVec 32 := 0#32
  let v22 : BitVec 1 := Scalar.cmpi .ne v21 c0_i32_15
  v22

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S256x1024_S256x1024_S1024x1024_S1536x1024_d0 : Shape.Concatenates [S256x1024, S256x1024, S1024x1024] S1536x1024 0
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  transposes_S1536x1024_p1_0_S1024x1536 : S1536x1024.Transposes [1, 0] S1024x1536
  slices_S512x1536_o0_0_S512x256 : S512x1536.Slices ![0, 0] S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  slices_S512x1536_o0_256_S512x256 : S512x1536.Slices ![0, 256] S512x256
  slices_S512x1536_o0_512_S512x1024 : S512x1536.Slices ![0, 512] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x256_p1_0_S256x1024 : S1024x256.Transposes [1, 0] S256x1024
  shapeCasts_S1024x1024_S1x1024x1024 : S1024x1024.ShapeCasts S1x1024x1024
  dot_S512x1024_S1024x1536_S512x1536_1_0_0_1_n_n_wf : DotDims.WF S512x1024 S1024x1536 S512x1536 [1] [0] [0] [1] [] []
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S1536x1024.size a
  hwx0_1 : ∀ i : grid0.Coords, EltTy.bits .bf16 = 32 ∨ (Rect.block (s := S1536x1024) S1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x4096x256.size a
  hwx0_2 : ∀ i : grid0.Coords, EltTy.bits .bf16 = 32 ∨ (Rect.block (s := S8x4096x256) S1x512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x4096x256.size a
  hwx0_3 : ∀ i : grid0.Coords, EltTy.bits .bf16 = 32 ∨ (Rect.block (s := S8x4096x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .bf16 = 32 ∨ (Rect.block (s := S8x4096x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .bf16 = 32 ∨ (Rect.block (s := S8x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S8x4096x256.size a
  hwx1_1 : ∀ i : grid1.Coords, EltTy.bits .bf16 = 32 ∨ (Rect.block (s := S8x4096x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x4096x1024.size a
  hwx1_2 : ∀ i : grid1.Coords, EltTy.bits .bf16 = 32 ∨ (Rect.block (s := S8x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x4096x1024.size a
  hwx1_3 : ∀ i : grid1.Coords, EltTy.bits .f32 = 32 ∨ (Rect.block (s := S8x4096x1024) S1x1024x1024.size (cc1_transform_3 i) (hinb1_3 i)).WholeWords (EltTy.packing .f32)

variable [Facts₀]

def dot_S512x1024_S1024x1536_S512x1536_1_0_0_1_n_n : DotDims S512x1024 S1024x1536 S512x1536 where
  lhsContracting := [1]
  rhsContracting := [0]
  lhsNonContracting := [0]
  rhsNonContracting := [1]
  lhsBatch := []
  rhsBatch := []
  wf := dot_S512x1024_S1024x1536_S512x1536_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1536x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S1024x1024 : Shape := ⟨2, ![1024, 1024]⟩
abbrev S8x4096x256 : Shape := ⟨3, ![8, 4096, 256]⟩
abbrev S8x4096x4096 : Shape := ⟨3, ![8, 4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S8x4096x256, .f32⟩
  | .hbm, ⟨5, _⟩ => ⟨S8x4096x256, .f32⟩
  | .hbm, ⟨6, _⟩ => ⟨S8x4096x1024, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  dot_S8x4096x1024_S256x1024_S8x4096x256_2_1_01_0_n_n_wf : DotDims.WF S8x4096x1024 S256x1024 S8x4096x256 [2] [1] [0, 1] [0] [] []
  dot_S8x4096x1024_S1024x1024_S8x4096x1024_2_1_01_0_n_n_wf : DotDims.WF S8x4096x1024 S1024x1024 S8x4096x1024 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Spec.lean ====
/-
  The mathematics both programs compute, over the extended reals, stated once and over literal extents.
  With x[b,n,f] the activations and three weight matrices stored row-major as [out, in]:
    θ[b,n,l] = Σ_f x[b,n,f]·Wθ[l,f],   φ[b,n,l] = Σ_f x[b,n,f]·Wφ[l,f],   g[b,n,o] = Σ_f x[b,n,f]·Wg[o,f],
    out[b,n,o] = Σ_m ((Σ_l θ[b,n,l]·φ[b,m,l])·κ)·g[b,m,o].
  One side stacks the three weight matrices into one [1536, 1024] array and reads θ, φ, g as row ranges of ONE
  product (`projAt`, `wcat`), and sums over m in four tiles of 1024 (`attendT`); the other takes the three products
  apart and sums over all 4096 values of m at once (`attend`). Regrouping a finite sum is valid on the extended
  reals (addition there is commutative and associative), so no finiteness is needed.
-/
import Idealize.ShloMosaic.PureOps.Ideal
import Idealize.ShloMosaic.Lib.ValueIdx

noncomputable section

open scoped BigOperators

namespace Cert.Spec

open Idealize.ShloMosaic Idealize.ShloMosaic.ValueIdx

/-- [8, 4096, 1024]: the activations, g, and the result. -/
abbrev SX : Shape := ⟨3, ![8, 4096, 1024]⟩
/-- [8, 4096, 256]: θ and φ. -/
abbrev SL : Shape := ⟨3, ![8, 4096, 256]⟩
/-- [256, 1024]: Wθ and Wφ. -/
abbrev SW : Shape := ⟨2, ![256, 1024]⟩
/-- [1024, 1024]: Wg. -/
abbrev SG : Shape := ⟨2, ![1024, 1024]⟩
/-- [1536, 1024]: the three weight matrices stacked along their rows. -/
abbrev SC : Shape := ⟨2, ![1536, 1024]⟩

/-- x against the rows `off … off + n − 1` of the stacked weights: P[b,i,l] = Σ_f x[b,i,f]·w[off + l, f]. -/
def projAt (n off : Nat) (h : off + n ≤ 1536) (x : SX.Idx → EReal) (w : SC.Idx → EReal) :
    (⟨3, ![8, 4096, n]⟩ : Shape).Idx → EReal :=
  fun j => ∑ f : Fin 1024, x (ix3 (⟨(j 0).val, (j 0).isLt⟩ : Fin 8) (⟨(j 1).val, (j 1).isLt⟩ : Fin 4096) f)
    * w (ix2 (⟨off + (j 2).val, by have := (j 2).isLt; simp only [Shape.size, Matrix.cons_val_two, Matrix.head_cons, Matrix.tail_cons] at this ⊢; omega⟩ : Fin 1536) f)

/-- x against a [256, 1024] weight matrix: P[b,i,l] = Σ_f x[b,i,f]·a[l,f]. -/
def projL (x : SX.Idx → EReal) (a : SW.Idx → EReal) : SL.Idx → EReal :=
  fun j => ∑ f : Fin 1024, x (ix3 (⟨(j 0).val, (j 0).isLt⟩ : Fin 8) (⟨(j 1).val, (j 1).isLt⟩ : Fin 4096) f)
    * a (ix2 (⟨(j 2).val, (j 2).isLt⟩ : Fin 256) f)

/-- x against the [1024, 1024] weight matrix: P[b,i,o] = Σ_f x[b,i,f]·g[o,f]. -/
def projG (x : SX.Idx → EReal) (g : SG.Idx → EReal) : SX.Idx → EReal :=
  fun j => ∑ f : Fin 1024, x (ix3 (⟨(j 0).val, (j 0).isLt⟩ : Fin 8) (⟨(j 1).val, (j 1).isLt⟩ : Fin 4096) f)
    * g (ix2 (⟨(j 2).val, (j 2).isLt⟩ : Fin 1024) f)

/-- The three weight matrices stacked along their rows: rows 0–255 are `a`, 256–511 are `b`, 512–1535 are `g`. -/
def wcat (a b : SW.Idx → EReal) (g : SG.Idx → EReal) : SC.Idx → EReal :=
  fun j =>
    if h : (j 0).val < 256 then a (ix2 (⟨(j 0).val, h⟩ : Fin 256) (⟨(j 1).val, (j 1).isLt⟩ : Fin 1024))
    else if h2 : (j 0).val < 512 then b (ix2 (⟨(j 0).val - 256, by omega⟩ : Fin 256) (⟨(j 1).val, (j 1).isLt⟩ : Fin 1024))
    else g (ix2 (⟨(j 0).val - 512, by have := (j 0).isLt; simp only [Shape.size, Matrix.cons_val_zero] at this; omega⟩ : Fin 1024) (⟨(j 1).val, (j 1).isLt⟩ : Fin 1024))

/-- The result summed over all 4096 values of m at once. -/
def attend (θ φ : SL.Idx → EReal) (g : SX.Idx → EReal) (κ : EReal) : SX.Idx → EReal :=
  fun j => ∑ m : Fin 4096,
    ((∑ l : Fin 256, θ (ix3 (⟨(j 0).val, (j 0).isLt⟩ : Fin 8) (⟨(j 1).val, (j 1).isLt⟩ : Fin 4096) l)
        * φ (ix3 (⟨(j 0).val, (j 0).isLt⟩ : Fin 8) m l)) * κ)
      * g (ix3 (⟨(j 0).val, (j 0).isLt⟩ : Fin 8) m (⟨(j 2).val, (j 2).isLt⟩ : Fin 1024))

/-- Row `k·1024 + r` of a tile `k` of four. -/
abbrev tileRow (k : Fin 4) (r : Fin 1024) : Fin 4096 := ⟨k.val * 1024 + r.val, by omega⟩

/-- The result summed over m tile by tile: four tiles of 1024 consecutive values. -/
def attendT (θ φ : SL.Idx → EReal) (g : SX.Idx → EReal) (κ : EReal) : SX.Idx → EReal :=
  fun j => ∑ k : Fin 4, ∑ r : Fin 1024,
    ((∑ l : Fin 256, θ (ix3 (⟨(j 0).val, (j 0).isLt⟩ : Fin 8) (⟨(j 1).val, (j 1).isLt⟩ : Fin 4096) l)
        * φ (ix3 (⟨(j 0).val, (j 0).isLt⟩ : Fin 8) (tileRow k r) l)) * κ)
      * g (ix3 (⟨(j 0).val, (j 0).isLt⟩ : Fin 8) (tileRow k r) (⟨(j 2).val, (j 2).isLt⟩ : Fin 1024))

/-- Both programs' result as one function of the four argument arrays. -/
def G (κ : EReal) (x : SX.Idx → EReal) (a b : SW.Idx → EReal) (g : SG.Idx → EReal) : SX.Idx → EReal :=
  attend (projL x a) (projL x b) (projG x g) κ

/-- A row below 256 of the stacked weights is that row of the first matrix. -/
theorem wcat_row_lo (a b : SW.Idx → EReal) (g : SG.Idx → EReal) (r : Nat) (hr : r < 1536) (f : Fin 1024) (h : r < 256) :
    wcat a b g (ix2 (⟨r, hr⟩ : Fin 1536) f) = a (ix2 (⟨r, h⟩ : Fin 256) f) := by
  unfold wcat
  rw [dif_pos (show ((ix2 (⟨r, hr⟩ : Fin 1536) f : SC.Idx) 0).val < 256 from h)]

/-- A row from 256 to 511 of the stacked weights is row `r − 256` of the second matrix. -/
theorem wcat_row_mid (a b : SW.Idx → EReal) (g : SG.Idx → EReal) (r : Nat) (hr : r < 1536) (f : Fin 1024)
    (h1 : ¬ r < 256) (h2 : r < 512) :
    wcat a b g (ix2 (⟨r, hr⟩ : Fin 1536) f) = b (ix2 (⟨r - 256, by omega⟩ : Fin 256) f) := by
  unfold wcat
  rw [dif_neg (show ¬ ((ix2 (⟨r, hr⟩ : Fin 1536) f : SC.Idx) 0).val < 256 from h1),
    dif_pos (show ((ix2 (⟨r, hr⟩ : Fin 1536) f : SC.Idx) 0).val < 512 from h2)]

/-- A row from 512 on of the stacked weights is row `r − 512` of the third matrix. -/
theorem wcat_row_hi (a b : SW.Idx → EReal) (g : SG.Idx → EReal) (r : Nat) (hr : r < 1536) (f : Fin 1024)
    (h1 : ¬ r < 256) (h2 : ¬ r < 512) :
    wcat a b g (ix2 (⟨r, hr⟩ : Fin 1536) f) = g (ix2 (⟨r - 512, by omega⟩ : Fin 1024) f) := by
  unfold wcat
  rw [dif_neg (show ¬ ((ix2 (⟨r, hr⟩ : Fin 1536) f : SC.Idx) 0).val < 256 from h1),
    dif_neg (show ¬ ((ix2 (⟨r, hr⟩ : Fin 1536) f : SC.Idx) 0).val < 512 from h2)]

/-- A sum over four tiles of 1024 is the sum over all 4096: (k, r) ↦ k·1024 + r is a bijection of
    Fin 4 × Fin 1024 with Fin 4096, and a finite sum in a commutative monoid may be re-indexed along a bijection. -/
theorem sum_tiles {M : Type*} [AddCommMonoid M] (F : Fin 4096 → M) :
    ∑ k : Fin 4, ∑ r : Fin 1024, F (tileRow k r) = ∑ m : Fin 4096, F m := by
  rw [← Fintype.sum_prod_type (f := fun p : Fin 4 × Fin 1024 => F (tileRow p.1 p.2))]
  refine Fintype.sum_equiv (finProdFinEquiv (m := 4) (n := 1024)) _ _ fun p => ?_
  refine congrArg F (Fin.ext ?_)
  show p.1.val * 1024 + p.2.val = p.2.val + 1024 * p.1.val
  omega

/-- Summing tile by tile is summing at once: m ↦ (m / 1024, m % 1024) is a bijection of Fin 4096 with Fin 4 × Fin 1024. -/
theorem attendT_eq_attend (θ φ : SL.Idx → EReal) (g : SX.Idx → EReal) (κ : EReal) :
    attendT θ φ g κ = attend θ φ g κ := by
  funext j
  exact sum_tiles fun m : Fin 4096 =>
    ((∑ l : Fin 256, θ (ix3 (⟨(j 0).val, (j 0).isLt⟩ : Fin 8) (⟨(j 1).val, (j 1).isLt⟩ : Fin 4096) l)
        * φ (ix3 (⟨(j 0).val, (j 0).isLt⟩ : Fin 8) m l)) * κ)
      * g (ix3 (⟨(j 0).val, (j 0).isLt⟩ : Fin 8) m (⟨(j 2).val, (j 2).isLt⟩ : Fin 1024))

/-- Rows 0–255 of the stacked weights are the first matrix. -/
theorem projAt_wcat_0 (x : SX.Idx → EReal) (a b : SW.Idx → EReal) (g : SG.Idx → EReal) :
    projAt 256 0 (by omega) x (wcat a b g) = projL x a := by
  funext j
  have hj : (j 2).val < 256 := (j 2).isLt
  unfold projAt projL
  refine Finset.sum_congr rfl fun f _ => ?_
  rw [wcat_row_lo a b g (0 + (j 2).val) (by omega) f (by omega)]
  simp only [Nat.zero_add]

/-- Rows 256–511 of the stacked weights are the second matrix. -/
theorem projAt_wcat_256 (x : SX.Idx → EReal) (a b : SW.Idx → EReal) (g : SG.Idx → EReal) :
    projAt 256 256 (by omega) x (wcat a b g) = projL x b := by
  funext j
  have hj : (j 2).val < 256 := (j 2).isLt
  unfold projAt projL
  refine Finset.sum_congr rfl fun f _ => ?_
  rw [wcat_row_mid a b g (256 + (j 2).val) (by omega) f (by omega) (by omega)]
  simp only [Nat.add_sub_cancel_left]

/-- Rows 512–1535 of the stacked weights are the third matrix. -/
theorem projAt_wcat_512 (x : SX.Idx → EReal) (a b : SW.Idx → EReal) (g : SG.Idx → EReal) :
    projAt 1024 512 (by omega) x (wcat a b g) = projG x g := by
  funext j
  have hj : (j 2).val < 1024 := (j 2).isLt
  unfold projAt projG
  refine Finset.sum_congr rfl fun f _ => ?_
  rw [wcat_row_hi a b g (512 + (j 2).val) (by omega) f (by omega) (by omega)]
  simp only [Nat.add_sub_cancel_left]

end Cert.Spec

end
-- ==== Proof.RefValue.lean ====
import proofs.«135283_j26594437496900_1_alg».proof.Defs
import proofs.«135283_j26594437496900_1_alg».proof.Proof.Gen.ReferenceIdeal.Run
import proofs.«135283_j26594437496900_1_alg».proof.Proof.Gen.ReferenceIdeal.Read
import proofs.«135283_j26594437496900_1_alg».proof.Proof.Spec

/-
  The reference program's result is the specification's function G of its four arguments.
  The reference forms θ = x·Wθᵀ, φ = x·Wφᵀ, g = x·Wgᵀ by three separate contractions over the 1024 features,
  then s[b,n,m] = Σ_l θ[b,n,l]·φ[b,m,l], scales every s by the constant κ, and contracts s·κ against g over all
  4096 values of m. Read at one index of the result, that is term by term the sum that defines G: the only work
  is to see that each operand index the contractions compute is the index G names by its coordinates.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- θ[b,n,l] = Σ_f x[b,n,f]·Wθ[l,f]: the first contraction over the features is the specification's projection. -/
theorem theta_eq (x : (⟨S8x4096x1024, .f32⟩ : BufTy).Contents (Elt Ideal)) (a : (⟨S256x1024, .f32⟩ : BufTy).Contents (Elt Ideal)) :
    val_main_v0 (F := Ideal) x a = Cert.Spec.projL x a := by
  funext j
  rw [val_main_v0_apply]
  unfold Cert.Spec.projL
  refine Finset.sum_congr rfl fun f _ => ?_
  -- the left operand is read at (batch, row, f), the right at (column, f)
  have el : lidx_main_v0 j f = ix3 (⟨(j 0).val, (j 0).isLt⟩ : Fin 8) (⟨(j 1).val, (j 1).isLt⟩ : Fin 4096) f :=
    funext fun d => by match d with | ⟨0, _⟩ => rfl | ⟨1, _⟩ => rfl | ⟨2, _⟩ => rfl
  have er : ridx_main_v0 j f = ix2 (⟨(j 2).val, (j 2).isLt⟩ : Fin 256) f :=
    funext fun d => by match d with | ⟨0, _⟩ => rfl | ⟨1, _⟩ => rfl
  rw [el, er]

/-- φ[b,n,l] = Σ_f x[b,n,f]·Wφ[l,f]: the second contraction, of the same shape. -/
theorem phi_eq (x : (⟨S8x4096x1024, .f32⟩ : BufTy).Contents (Elt Ideal)) (b : (⟨S256x1024, .f32⟩ : BufTy).Contents (Elt Ideal)) :
    val_main_v1 (F := Ideal) x b = Cert.Spec.projL x b := by
  funext j
  rw [val_main_v1_apply]
  unfold Cert.Spec.projL
  refine Finset.sum_congr rfl fun f _ => ?_
  have el : lidx_main_v1 j f = ix3 (⟨(j 0).val, (j 0).isLt⟩ : Fin 8) (⟨(j 1).val, (j 1).isLt⟩ : Fin 4096) f :=
    funext fun d => by match d with | ⟨0, _⟩ => rfl | ⟨1, _⟩ => rfl | ⟨2, _⟩ => rfl
  have er : ridx_main_v1 j f = ix2 (⟨(j 2).val, (j 2).isLt⟩ : Fin 256) f :=
    funext fun d => by match d with | ⟨0, _⟩ => rfl | ⟨1, _⟩ => rfl
  rw [el, er]

/-- g[b,n,o] = Σ_f x[b,n,f]·Wg[o,f]: the third contraction, against the [1024, 1024] matrix. -/
theorem g_eq (x : (⟨S8x4096x1024, .f32⟩ : BufTy).Contents (Elt Ideal)) (g : (⟨S1024x1024, .f32⟩ : BufTy).Contents (Elt Ideal)) :
    val_main_v2 (F := Ideal) x g = Cert.Spec.projG x g := by
  funext j
  rw [val_main_v2_apply]
  unfold Cert.Spec.projG
  refine Finset.sum_congr rfl fun f _ => ?_
  have el : lidx_main_v2 j f = ix3 (⟨(j 0).val, (j 0).isLt⟩ : Fin 8) (⟨(j 1).val, (j 1).isLt⟩ : Fin 4096) f :=
    funext fun d => by match d with | ⟨0, _⟩ => rfl | ⟨1, _⟩ => rfl | ⟨2, _⟩ => rfl
  have er : ridx_main_v2 j f = ix2 (⟨(j 2).val, (j 2).isLt⟩ : Fin 1024) f :=
    funext fun d => by match d with | ⟨0, _⟩ => rfl | ⟨1, _⟩ => rfl
  rw [el, er]

/-- The reference's last value, index by index, is G at the constant κ the program scales by. -/
theorem ref_eq (x : (⟨S8x4096x1024, .f32⟩ : BufTy).Contents (Elt Ideal)) (a b : (⟨S256x1024, .f32⟩ : BufTy).Contents (Elt Ideal)) (g : (⟨S1024x1024, .f32⟩ : BufTy).Contents (Elt Ideal)) :
    Cert.ReferenceIdeal.Read.val_main_v6 (F := Ideal) x a b g = Cert.Spec.G (Ideal.ofBits .f32 0x3D000000#32) x a b g := by
  funext i
  rw [val_main_v6_apply, g_eq]
  unfold Cert.Spec.G Cert.Spec.attend
  -- both sides are sums over the 4096 values of m; compare them term by term
  refine Finset.sum_congr rfl fun m _ => ?_
  rw [val_main_v5_apply, val_main_v3_apply, val_main_v4_apply, val_main_cst_apply, Ideal.mulf_def, Ideal.ofBits_def,
    theta_eq, phi_eq]
  -- the score s[b,n,m] reads θ at (b, n, l) and φ at (b, m, l); the last contraction reads g at (b, m, o)
  have eθ : ∀ l : Fin 256, lidx_main_v3 (lidx_main_v6 i m) l
      = ix3 (⟨(i 0).val, (i 0).isLt⟩ : Fin 8) (⟨(i 1).val, (i 1).isLt⟩ : Fin 4096) l :=
    fun l => funext fun d => by match d with | ⟨0, _⟩ => rfl | ⟨1, _⟩ => rfl | ⟨2, _⟩ => rfl
  have eφ : ∀ l : Fin 256, ridx_main_v3 (lidx_main_v6 i m) l = ix3 (⟨(i 0).val, (i 0).isLt⟩ : Fin 8) m l :=
    fun l => funext fun d => by match d with | ⟨0, _⟩ => rfl | ⟨1, _⟩ => rfl | ⟨2, _⟩ => rfl
  have eg : ridx_main_v6 i m = ix3 (⟨(i 0).val, (i 0).isLt⟩ : Fin 8) m (⟨(i 2).val, (i 2).isLt⟩ : Fin 1024) :=
    funext fun d => by match d with | ⟨0, _⟩ => rfl | ⟨1, _⟩ => rfl | ⟨2, _⟩ => rfl
  simp only [eθ, eφ, eg]

end Cert.ReferenceIdeal.RefValue

end
-- ==== Proof.KReg0.lean ====
import proofs.«135283_j26594437496900_1_alg».proof.Proof.Gen.Kernel.Launch
import proofs.«135283_j26594437496900_1_alg».proof.Proof.Gen.Kernel.Skeleton
import proofs.«135283_j26594437496900_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection region, point by point

The first region computes, for each batch `b` and each tile of 512 rows, the product `y = x · Wᵀ` of the
row tile `x` ([512, 1024]) with the stacked weight `W` ([1536, 1024]), and writes the three column bands of
`y` — columns 0–255 (θ), 256–511 (φ), 512–1535 (g) — into three output blocks. This module states what one
grid point does, for ANY contents `V` of the buffers at the region's entry: the row tile and the weight are
left as found, and each output block becomes the corresponding band of the product of the two input blocks. -/

-- membership of an index in a rectangle with axes of length 512, 1024, 1536 is checked coordinate by coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the projection region is entered: everything below is stated at this parameter
variable (V : (c : Dev nD) → (b : Ref sig .tc) → Buf (Elt F) ((c : Thread nD τ).loc b))

/-! ## The blocks of the five windows -/

/-- Window `w`'s block at grid point `t`, read off its array at the entry contents: for the row-tile windows
    (0, 2, 3, 4) the 512 rows of batch `b` starting at row `512·i`, where `t = 8·b + i`; for the weight
    window (1) the whole stacked weight, whatever the point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile input's staging buffer holds the tile of the current point at every point, for any proof data
    whose array is the entry contents and whose body leaves that buffer in place: the tile is fetched afresh at
    every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, under the same two hypotheses: it is
    fetched at the first point only, and where it is not fetched its block index has not moved (it never does),
    so what the body left in place is still the block a fetch would bring. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

/-- The whole [1, 512, 1024] buffer: the row tile `x` as read, and the g band as written. -/
abbrev r0_x : Rect S1x512x1024 := Rect.unit (s := S1x512x1024) ![0, 0, 0] S1x512x1024.size inb_S1x512x1024_S1x512x1024_0_0_0
/-- The whole [1536, 1024] buffer: the stacked weight `W` as read. -/
abbrev r0_w : Rect S1536x1024 := Rect.unit (s := S1536x1024) ![0, 0] S1536x1024.size inb_S1536x1024_S1536x1024_0_0
/-- The whole [1, 512, 256] buffer: the θ band and the φ band as written. -/
abbrev r0_a : Rect S1x512x256 := Rect.unit (s := S1x512x256) ![0, 0, 0] S1x512x256.size inb_S1x512x256_S1x512x256_0_0_0

/-! ## What the body leaves in the three output buffers -/

/-- The θ buffer after the body: columns 0–255 of `x · Wᵀ`, one store over the whole buffer. -/
def out0_2 (x0 : Vec F S1x512x1024 .f32) (x1 : Vec F S1536x1024 .bf16) : Vec F S1x512x256 .bf16 :=
  View.canon [⟨r0_a, k0_pay2 (View.ld x0 r0_x) (View.ld x1 r0_w)⟩]
/-- The φ buffer after the body: columns 256–511 of `x · Wᵀ`, one store over the whole buffer. -/
def out0_3 (x0 : Vec F S1x512x1024 .f32) (x1 : Vec F S1536x1024 .bf16) : Vec F S1x512x256 .bf16 :=
  View.canon [⟨r0_a, k0_pay3 (View.ld x0 r0_x) (View.ld x1 r0_w)⟩]
/-- The g buffer after the body: columns 512–1535 of `x · Wᵀ`, one store over the whole buffer. -/
def out0_4 (x0 : Vec F S1x512x1024 .f32) (x1 : Vec F S1536x1024 .bf16) : Vec F S1x512x1024 .bf16 :=
  View.canon [⟨r0_x, k0_pay4 (View.ld x0 r0_x) (View.ld x1 r0_w)⟩]

/-- One store over the whole [1, 512, 256] buffer covers it. -/
theorem cover0_a (p0 : Vec F S1x512x256 .bf16) (y : S1x512x256.Idx) :
    ∃ pc ∈ ([⟨r0_a, p0⟩] : List (View.Piece (Elt F) S1x512x256 .bf16)), y ∈ pc.1.set :=
  View.cover_of_tiled [⟨r0_a, p0⟩] S1x512x256.size (by rfl) y

/-- One store over the whole [1, 512, 1024] buffer covers it. -/
theorem cover0_g (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-! ## The body's triple -/

set_option maxHeartbeats 1000000 in
/-- The body on whole buffers, the two inputs' holding `x0` and `x1` and the three outputs' holding anything,
    runs to the continuation with the inputs' as they were and the outputs' at the three bands of the product
    of `x0` and `x1`. What the body reads of an output buffer before overwriting it is used nowhere. -/
theorem sound_kernel0 (c : Dev nD) (E : Set ℕ) (i : grid0.Coords)
    (arg2 : Memref sig .tc .vmem S1x512x1024 .f32) (harg2 : arg2.IsWhole) (arg3 : Memref sig .tc .vmem S1536x1024 .bf16) (harg3 : arg3.IsWhole)
    (arg4 : Memref sig .tc .vmem S1x512x256 .bf16) (harg4 : arg4.IsWhole) (arg5 : Memref sig .tc .vmem S1x512x256 .bf16) (harg5 : arg5.IsWhole)
    (arg6 : Memref sig .tc .vmem S1x512x1024 .bf16) (harg6 : arg6.IsWhole)
    (x0 : Vec F S1x512x1024 .f32) (x1 : Vec F S1536x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_a _)
  isplitl [H3]
  · iexists _; isplitr
    swap; · iexact H3
    ipureintro
    exact View.read_writes_eq_canon _ _ _ (cover0_a _)
  iexists _; isplitr
  swap; · iexact H4
  ipureintro
  exact View.read_writes_eq_canon _ _ _ (cover0_g _)

/-! ## The region's proof data -/

/-- The proof data of the projection region on core `c`: the arrays as the region finds them; after the body at
    point `t` the two inputs' buffers at their blocks and the three outputs' at the bands of the product of those
    two blocks; the invariant is the scoped remainder and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies at those two
    blocks; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Runs.lean ====
/-
  The attention call on one core: what its three control cases share.

  Its grid is [8, 4, 4] — batch b, query tile qi, key tile ki — walked with ki fastest, so position
  t = (b·4 + qi)·4 + ki has ki = t mod 4. Between positions the body keeps a [1024, 1024] accumulator:
    ki = 0     the accumulator is zeroed, then the tile's term ((θ·φᵀ)·κ)·g is added to it;
    ki = 1, 2  the tile's term is added;
    ki = 3     the tile's term is added and the accumulator is stored as the output block of (b, qi).
  This module has: the block each input window shows at a position; the two branch conditions in closed
  form over the grid; where the output window is idle; the memrefs the body is called on; and the class
  invariant opened into the projection call's nine staging buffers (never touched here), the accumulator,
  and the generator register.
-/
import proofs.«135283_j26594437496900_1_alg».proof.Proof.Gen.Kernel.Launch
import proofs.«135283_j26594437496900_1_alg».proof.Proof.Gen.Kernel.Skeleton
import proofs.«135283_j26594437496900_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at position `t`, read off its array as the call finds it (`V`): for θ the rows of query
    tile qi of batch b, for φ and g the rows of key tile ki of batch b. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- θ's staging buffer holds the query tile's block at EVERY position, although it is fetched only where ki = 0:
    at the other three positions of a query tile the block index has not moved, and the body leaves the buffer
    as it found it. For any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  refine (dat.before_in_eq_fetched 0 rfl (fun _ => rfl) (fun _ _ _ => rfl) (fun t => ?_) t d).trans ?_
  · rw [hafter]; unfold Dat.blockOf iblk1; rw [hA]; try rfl
  · unfold Dat.fetched Dat.blockOf iblk1; rw [hA]; try rfl

/-- φ's staging buffer holds the key tile's block (fetched at every position). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  refine (dat.before_in_eq_fetched 1 rfl (fun _ => rfl) (fun _ _ _ => rfl) (fun t => ?_) t d).trans ?_
  · rw [hafter]; unfold Dat.blockOf iblk1; rw [hA]; try rfl
  · unfold Dat.fetched Dat.blockOf iblk1; rw [hA]; try rfl

/-- g's staging buffer holds the key tile's block (fetched at every position). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  refine (dat.before_in_eq_fetched 2 rfl (fun _ => rfl) (fun _ _ _ => rfl) (fun t => ?_) t d).trans ?_
  · rw [hafter]; unfold Dat.blockOf iblk1; rw [hA]; try rfl
  · unfold Dat.fetched Dat.blockOf iblk1; rw [hA]; try rfl

/-! ## The two branch conditions -/

/-- "This is the first key tile": the word the body tests before zeroing the accumulator, from the grid
    coordinates (ki = 0, as the chain of integer comparisons the body computes). -/
abbrev firstTile (i : grid1.Coords) : Prop := (Scalar.cmpi .ne (Scalar.extui (Scalar.cmpi .eq (BitVec.ofNat 32 (i 2).val) 0#32)) 0#32) = 1#1
/-- It holds exactly at the positions ≡ 0 (mod 4). -/
theorem firstTile_iff : ∀ t : Fin cfg1.N, firstTile (grid1.coords t) ↔ t.val % 4 = 0 :=
  (by decide +kernel : ∀ t : Fin grid1.N, firstTile (grid1.coords t) ↔ t.val % 4 = 0)

/-- "This is the last key tile": the word the body tests before storing the output block (ki = 3). -/
abbrev lastTile (i : grid1.Coords) : Prop := k1_cond2 i = 1#1
/-- It holds exactly at the positions ≡ 3 (mod 4). -/
theorem lastTile_iff : ∀ t : Fin cfg1.N, lastTile (grid1.coords t) ↔ t.val % 4 = 3 :=
  (by decide +kernel : ∀ t : Fin grid1.N, lastTile (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key tile the output window is idle (nothing is stored into it) … -/
theorem idleAt1_3 : ∀ t : Fin cfg1.N, ¬lastTile (grid1.coords t) → cfg1.idle 3 (grid1.coords t) = true := by decide +kernel
/-- … and the pipeline does not write its block back. -/
theorem noFlush1_3 : ∀ t : Fin cfg1.N, ¬lastTile (grid1.coords t) → (cfg1.win 3).flush t = false := by decide +kernel
/-- On the last key tile the output window is live. -/
theorem liveAt1_3 : ∀ t : Fin cfg1.N, lastTile (grid1.coords t) → cfg1.idle 3 (grid1.coords t) = false := by decide +kernel

/-! ## The memrefs the body is called on -/

/-- One staging buffer of the output window, through which its contents are stated (which one does not matter). -/
abbrev VO1_3 : View sig .tc .vmem S1x1024x1024 .f32 := (Memref.whole cc1_stg3_0 : Memref sig .tc .vmem S1x1024x1024 .f32).view
/-- Each window's current staging memref at position `t`, as the pipeline passes it, and its wholeness. -/
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The accumulator: a whole scoped buffer of the call's own, passed beside the windows and carried between positions. -/
abbrev scM1 : Memref sig .tc .vmem S1024x1024 .f32 := Memref.whole cc1_scratch0
/-- The accumulator as a view: what it holds is stated through it. -/
abbrev VS1 : View sig .tc .vmem S1024x1024 .f32 := scM1.view

/-! ## The class invariant, opened -/

/-- The projection call's nine staging buffers, each whole at some contents. They are scoped buffers of the
    core that are no staging buffer of the attention call, so its invariant carries them; it never touches them. -/
def projStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant hands out: the nine untouched buffers, the accumulator at some contents, the generator register. -/
theorem PhiA1_open (c : Dev nD) :
    (Pipeline.ΦA spec1 c : sProp 𝕄)
      ⊢ iprop(iprop(projStaging (F := F) c ∗ (∃ d, owns (c : Thread nD τ) scM1 fullShare d)) ∗ (∃ r, prngReg c r)) := by
  unfold Pipeline.ΦA projStaging; rw [scopedRest1_eq]; simp only [scM1, owns_whole]
  iintro ⟨⟨H1, H2, H3, H4, H5, H6, H7, H8, H9, HS⟩, Hg⟩
  iframe

/-- And takes the same three back. -/
theorem PhiA1_close (c : Dev nD) :
    (iprop(iprop(projStaging (F := F) c ∗ (∃ d, owns (c : Thread nD τ) scM1 fullShare d)) ∗ (∃ r, prngReg c r)) : sProp 𝕄)
      ⊢ Pipeline.ΦA spec1 c := by
  unfold Pipeline.ΦA projStaging; rw [scopedRest1_eq]; simp only [scM1, owns_whole]
  iintro ⟨⟨⟨H1, H2, H3, H4, H5, H6, H7, H8, H9⟩, HS⟩, Hg⟩
  iframe

end Cert.Kernel.Hand

end
-- ==== Proof.KReg1RunA.lean ====
/-
  The attention body at a FIRST key tile (ki = 0), run whole on any whole memrefs.
  With the three input buffers at x0 (θ block), x1 (φ block), x2 (g block), the output buffer at anything
  (it is handed back untouched: nothing is stored into it here) and the accumulator at anything, the body
  zeroes the accumulator and then stores into it the sum of what it just wrote and the tile's term. The
  stores it performs on the accumulator, as a list of pieces (last first), are the witness the symbolic
  run of the body's memory operations finds.
-/
import proofs.«135283_j26594437496900_1_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First key tile: the pieces stored into the output buffer (none) and into the accumulator, with the
    body's triple over them. -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i)
    (x0 : Vec F S1x1024x256 .bf16) (x1 : Vec F S1x1024x256 .bf16) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KReg1RunB.lean ====
/-
  The attention body at a MIDDLE key tile (ki = 1 or 2), run whole on any whole memrefs.
  With the input buffers at x0, x1, x2, the output buffer at anything (handed back untouched) and the
  accumulator at xs — what the position before left —, the body stores into the accumulator xs plus the
  tile's term. The pieces stored are the witness the symbolic run finds.
-/
import proofs.«135283_j26594437496900_1_alg».proof.Proof.KReg1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Middle key tile: the pieces stored into the output buffer (none) and into the accumulator, with the
    body's triple over them. -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i)
    (x0 : Vec F S1x1024x256 .bf16) (x1 : Vec F S1x1024x256 .bf16) (x2 : Vec F S1x1024x1024 .bf16) (xs : Vec F S1024x1024 .f32) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KReg1RunC.lean ====
/-
  The attention body at a LAST key tile (ki = 3), run whole on any whole memrefs.
  With the input buffers at x0, x1, x2, the output buffer at anything and the accumulator at xs, the body
  stores into the accumulator xs plus the tile's term, reads it back, and stores what it read, reshaped to
  [1, 1024, 1024], over the whole output buffer. The pieces stored into each are the witness the symbolic
  run finds.
-/
import proofs.«135283_j26594437496900_1_alg».proof.Proof.KReg1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Last key tile: the pieces stored into the output buffer and into the accumulator, with the body's
    triple over them. -/
noncomputable def kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i)
    (x0 : Vec F S1x1024x256 .bf16) (x1 : Vec F S1x1024x256 .bf16) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KReg1.lean ====
/-
  The attention call on one core, at the buffer contents `V` it is entered with: what the output buffer
  and the accumulator hold after every position, the proof data of its pipeline, and the body obligation.

  After position t the accumulator holds
    ki = 0 :  pay2(θ-block, φ-block, g-block, zeros)                       (zeros = pay1)
    ki > 0 :  pay2(θ-block, φ-block, g-block, accumulator after t − 1)
  where pay2(θ, φ, g, s) = s + ((θ·φᵀ)·κ)·g is the payload of the body's accumulating store, and at ki = 3 the
  output buffer holds pay3(accumulator after t), the accumulator reshaped to [1, 1024, 1024]. These three
  equations (`sc_A`, `sc_BC`, `out_C`) are all the value side needs of this module.
-/
import proofs.«135283_j26594437496900_1_alg».proof.Proof.KReg1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a position, from its residue mod 4 -/

theorem isFirst (t : Fin cfg1.N) (h0 : t.val % 4 = 0) : firstTile (grid1.coords t) := (firstTile_iff t).mpr h0
theorem notFirst (t : Fin cfg1.N) (h0 : ¬t.val % 4 = 0) : ¬firstTile (grid1.coords t) := fun h => h0 ((firstTile_iff t).mp h)
theorem isLast (t : Fin cfg1.N) (h1 : t.val % 4 = 3) : lastTile (grid1.coords t) := (lastTile_iff t).mpr h1
theorem notLast (t : Fin cfg1.N) (h1 : ¬t.val % 4 = 3) : ¬lastTile (grid1.coords t) := fun h => h1 ((lastTile_iff t).mp h)
/-- A first key tile is not a last one. -/
theorem notLast_of_first (t : Fin cfg1.N) (h0 : t.val % 4 = 0) : ¬lastTile (grid1.coords t) :=
  notLast t (fun h1 => by omega)

/-! ## What each case leaves, read back from the pieces its run found -/

/-- First key tile: nothing is stored into the output buffer; a placeholder nothing consults (the window is
    idle there and its block is not written back). -/
def out1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) : Vec F S1x1024x1024 .f32 :=
  VO1_3.read (Elt F) (VO1_3.writes (Elt F) VO1_3.junk (kernelRun1_A c i arg3 harg3 arg4 harg4 arg5 harg5 arg6 harg6 arg7 harg7 hc0 hc1 x0 x1 x2).1)
/-- First key tile: the pieces stored into the accumulator cover it. -/
theorem scover1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- First key tile: what the accumulator holds afterwards. -/
def sout1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Middle key tile: nothing is stored into the output buffer; a placeholder nothing consults. -/
def out1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 hc0 hc1 x0 x1 x2 xs).1)
/-- Middle key tile: the piece stored into the accumulator covers it. -/
theorem scover1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) (y : S1024x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S1024x1024.size (by sl_kernel_rfl) y
/-- Middle key tile: what the accumulator holds afterwards. -/
def sout1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).2.1)

/-- Last key tile: the piece stored into the output buffer covers it. -/
theorem cover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) (y : S1x1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1x1024x1024.size (by sl_kernel_rfl) y
/-- Last key tile: what the output buffer holds afterwards. -/
def out1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 hc0 hc1 x0 x1 x2 xs).1)
/-- Last key tile: the piece stored into the accumulator covers it. -/
theorem scover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y
/-- Last key tile: what the accumulator holds afterwards. -/
def sout1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-! ## The pieces, as payloads of the input blocks -/

theorem attnOff2 : (![0, 0] : Fin 2 → Nat) = fun _ => 0 := funext fun a => by fin_cases a <;> rfl
theorem attnOff3 : (![0, 0, 0] : Fin 3 → Nat) = fun _ => 0 := funext fun a => by fin_cases a <;> rfl

/-- First key tile: the accumulator ends at the accumulating payload over zeros. Of the two whole-buffer stores the
    later one decides; what it read back of the accumulator is the earlier store's payload, the zeros. -/
theorem sout1_A_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) :
    sout1_A c i arg3 harg3 arg4 harg4 arg5 harg5 arg6 harg6 arg7 harg7 hc0 hc1 x0 x1 x2 = k1_pay2 x0 x1 x2 (k1_pay1 (F := F)) := by
  unfold sout1_A
  rw [View.read_writes_junk_eq_canon]
  unfold kernelRun1_A
  dsimp only
  sl_unfold_words
  rw [View.canon_cons_unit_zero (S := S1024x1024) attnOff2, View.readCov_unit_zero (S := S1024x1024) _ attnOff2]
  simp only [View.readAt_eq_ld, harg3.read_unread, harg4.read_unread, harg5.read_unread, View.ld_unit_zero (S := S1x1024x256) attnOff3, View.ld_unit_zero (S := S1x1024x1024) attnOff3]

/-- Middle key tile: the accumulator ends at the accumulating payload over what it held. -/
theorem sout1_B_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) :
    sout1_B c i arg3 harg3 arg4 harg4 arg5 harg5 arg6 harg6 arg7 harg7 hc0 hc1 x0 x1 x2 xs = k1_pay2 x0 x1 x2 xs := by
  unfold sout1_B
  rw [View.read_writes_junk_eq_canon]
  unfold kernelRun1_B
  dsimp only
  sl_unfold_words
  rw [View.canon_unit_zero (S := S1024x1024) attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-- Last key tile: the accumulator likewise. -/
theorem sout1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) :
    sout1_C c i arg3 harg3 arg4 harg4 arg5 harg5 arg6 harg6 arg7 harg7 hc0 hc1 x0 x1 x2 xs = k1_pay2 x0 x1 x2 xs := by
  unfold sout1_C
  rw [View.read_writes_junk_eq_canon]
  unfold kernelRun1_C
  dsimp only
  sl_unfold_words
  rw [View.canon_unit_zero (S := S1024x1024) attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-- Last key tile: the output buffer ends at the reshaping payload of the accumulator as just stored. -/
theorem out1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) :
    out1_C c i arg3 harg3 arg4 harg4 arg5 harg5 arg6 harg6 arg7 harg7 hc0 hc1 x0 x1 x2 xs = k1_pay3 (k1_pay2 x0 x1 x2 xs) := by
  unfold out1_C
  rw [View.read_writes_junk_eq_canon]
  unfold kernelRun1_C
  dsimp only
  sl_unfold_words
  rw [View.canon_unit_zero (S := S1x1024x1024) attnOff3, View.readCov_unit_zero (S := S1024x1024) _ attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-! ## The accumulation, position by position -/

/-- (output buffer, accumulator) after a first key tile at position `t`: the case run on the position's memrefs
    and input blocks. -/
def atFirst (c : Dev nD) (t : Fin cfg1.N) (h0 : t.val % 4 = 0) : Vec F S1x1024x1024 .f32 × Vec F S1024x1024 .f32 :=
  (out1_A c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t))
/-- The same after a middle key tile, the accumulator found at `xs`. -/
def atMid (c : Dev nD) (t : Fin cfg1.N) (h0 : ¬t.val % 4 = 0) (h1 : ¬t.val % 4 = 3) (xs : Vec F S1024x1024 .f32) : Vec F S1x1024x1024 .f32 × Vec F S1024x1024 .f32 :=
  (out1_B c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) xs)
/-- The same after a last key tile, the accumulator found at `xs`. -/
def atLast (c : Dev nD) (t : Fin cfg1.N) (h0 : ¬t.val % 4 = 0) (h1 : t.val % 4 = 3) (xs : Vec F S1024x1024 .f32) : Vec F S1x1024x1024 .f32 × Vec F S1024x1024 .f32 :=
  (out1_C c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) xs)

/-- What the output window's staging buffer and the accumulator hold after the body at position `n`: the case
    n mod 4 selects, a middle or last tile starting from the accumulator the position before left. -/
def outsAt1 (c : Dev nD) : (n : ℕ) → n < cfg1.N → Vec F S1x1024x1024 .f32 × Vec F S1024x1024 .f32
  | 0, hn => atFirst V c ⟨0, hn⟩ (Nat.zero_mod 4)
  | n + 1, hn =>
    if h0 : (n + 1) % 4 = 0 then atFirst V c ⟨n + 1, hn⟩ h0
    else if h1 : (n + 1) % 4 = 3 then atLast V c ⟨n + 1, hn⟩ h0 h1 (outsAt1 c n (Nat.lt_of_succ_lt hn)).2
    else atMid V c ⟨n + 1, hn⟩ h0 h1 (outsAt1 c n (Nat.lt_of_succ_lt hn)).2

/-- `outsAt1` at a first key tile. -/
theorem outsAt1_first (c : Dev nD) (t : Fin cfg1.N) (h0 : t.val % 4 = 0) :
    outsAt1 V c t.val t.isLt = atFirst V c t h0 := by
  obtain ⟨n, hn⟩ := t
  cases n with
  | zero => rfl
  | succ n => exact dif_pos h0
/-- `outsAt1` at a middle key tile, over what the position before left. -/
theorem outsAt1_mid (c : Dev nD) (t : Fin cfg1.N) (h0 : ¬t.val % 4 = 0) (h1 : ¬t.val % 4 = 3) :
    outsAt1 V c t.val t.isLt = atMid V c t h0 h1 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans (dif_neg h1)
/-- `outsAt1` at a last key tile, over what the position before left. -/
theorem outsAt1_last (c : Dev nD) (t : Fin cfg1.N) (h0 : ¬t.val % 4 = 0) (h1 : t.val % 4 = 3) :
    outsAt1 V c t.val t.isLt = atLast V c t h0 h1 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans (dif_pos h1)

/-! ## The invariant between positions -/

/-- Before position `n`: at the start the class invariant (the accumulator at anything); afterwards the nine
    untouched buffers, the accumulator at what position n − 1 left in it, and the generator register. -/
def PhiS1 (c : Dev nD) : (n : ℕ) → n ≤ cfg1.N → sProp 𝕄
  | 0, _ => Pipeline.ΦA spec1 c
  | n + 1, hn => iprop(iprop(projStaging (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(projStaging (F := F) c ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop(projStaging (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

/-- The attention pipeline's proof data on core `c`: the arrays as the call finds them (`V`); after the body
    at position `t` each input's buffer at its block, the output's at `outsAt1`'s first component; the invariant
    `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every position. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at any position -/

/-- What the body is called with at position `t`: the invariant, the dues, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- And what it returns: the invariant one position on, the same dues, each window's buffer at what the proof
    data say the body leaves. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- What the body leaves in each input's buffer is its block (the inputs are never idle). -/
theorem leaves1_0 (c : Dev nD) (t : Fin cfg1.N) : (dat1 V c).leavesExact 0 t = owns (c : Thread nD τ) (ms1_0 t) fullShare (iblk1 V c 0 t) :=
  (show _ = owns (c : Thread nD τ) (ms1_0 t) fullShare ((dat1 V c).after 0 t) from by unfold Dat.leavesExact; rw [liveAt1_0 t]).trans (by rw [after1_0])
theorem leaves1_1 (c : Dev nD) (t : Fin cfg1.N) : (dat1 V c).leavesExact 1 t = owns (c : Thread nD τ) (ms1_1 t) fullShare (iblk1 V c 1 t) :=
  (show _ = owns (c : Thread nD τ) (ms1_1 t) fullShare ((dat1 V c).after 1 t) from by unfold Dat.leavesExact; rw [liveAt1_1 t]).trans (by rw [after1_1])
theorem leaves1_2 (c : Dev nD) (t : Fin cfg1.N) : (dat1 V c).leavesExact 2 t = owns (c : Thread nD τ) (ms1_2 t) fullShare (iblk1 V c 2 t) :=
  (show _ = owns (c : Thread nD τ) (ms1_2 t) fullShare ((dat1 V c).after 2 t) from by unfold Dat.leavesExact; rw [liveAt1_2 t]).trans (by rw [after1_2])

/-- The accumulator's contents may be forgotten. -/
theorem acc_forget (c : Dev nD) (X : Vec F S1024x1024 .f32) :
    (iprop(iprop(projStaging (F := F) c ∗ owns (c : Thread nD τ) scM1 fullShare X) ∗ (∃ r, prngReg c r)) : sProp 𝕄)
      ⊢ iprop(iprop(projStaging (F := F) c ∗ (∃ d, owns (c : Thread nD τ) scM1 fullShare d)) ∗ (∃ r, prngReg c r)) := by
  iintro ⟨⟨H9, HS⟩, Hg⟩
  isplitr [Hg]
  · isplitl [H9]; · iexact H9
    iexists _; iexact HS
  · iexact Hg

/-- Before ANY position the invariant lends the accumulator at SOME contents (all a first key tile needs, since it
    overwrites the accumulator before reading it): at position 0 by opening the class invariant, later by forgetting
    what the position before left. -/
theorem Phi1_lend (c : Dev nD) (t : Fin cfg1.N) :
    (dat1 V c).Φ t.castSucc ⊢ iprop(iprop(projStaging (F := F) c ∗ (∃ d, owns (c : Thread nD τ) scM1 fullShare d)) ∗ (∃ r, prngReg c r)) := by
  rw [PhiS1_castSucc]
  by_cases hz : t.val = 0
  · rw [PhiS1_zero V c _ _ hz]; exact PhiA1_open c
  · rw [PhiS1_pos V c _ _ hz]; exact acc_forget c _

/-- The body at any position: the inputs' buffers hold their blocks; t mod 4 says which case runs; the
    invariant lends the accumulator (at anything at position 0, else at what the position before left) and
    takes it back at this position's contents; the output buffer comes back untouched off the last key tile
    and with the accumulator's reshaped copy on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 4 = 0
  · -- a first key tile: the accumulator is lent at anything; the output buffer goes through untouched
    rw [Dat.leavesExact_idle (dat1 V c) 3 t (idleAt1_3 t (notLast_of_first t h0)) (noFlush1_3 t (notLast_of_first t h0))]
    rw [outsAt1_first V c t h0]
    unfold atFirst sout1_A; dsimp only
    refine (sep_mono (Phi1_lend V c t) .rfl).trans ?_
    iintro ⟨⟨⟨H9, HS⟩, Hg⟩, Ho, ⟨%d0, H0⟩, ⟨%d1, H1⟩, ⟨%d2, H2⟩, ⟨%d3, H3⟩⟩
    iapply ((kernelRun1_A c (grid1.coords t) _ _ _ _ _ _ _ _ _ _ (isFirst t h0) (notLast_of_first t h0) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [H9 HS Hg]
    · isplitl [H9 HS]
      · isplitl [H9]; · iexact H9
        unfold owns; iexists _; isplitr
        swap; · iexact HS
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · -- a last key tile: the accumulator is lent at what the position before left; the output buffer is stored whole
      rw [show (dat1 V c).leavesExact 3 t = owns (c : Thread nD τ) (ms1_3 t) fullShare ((dat1 V c).after 3 t) from by
        unfold Dat.leavesExact; rw [liveAt1_3 t (isLast t h1)], after1_3]
      rw [outsAt1_last V c t h0 h1]
      unfold atLast out1_C sout1_C; dsimp only
      rw [PhiS1_castSucc V c t, PhiS1_pos V c _ _ hz]
      iintro ⟨⟨⟨H9, HS⟩, Hg⟩, Ho, ⟨%d0, H0⟩, ⟨%d1, H1⟩, ⟨%d2, H2⟩, ⟨%d3, H3⟩⟩
      iapply ((kernelRun1_C c (grid1.coords t) _ _ _ _ _ _ _ _ _ _ (notFirst t h0) (isLast t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [H9 HS Hg]
      · isplitl [H9 HS]
        · isplitl [H9]; · iexact H9
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle key tile: the accumulator is lent at what the position before left; the output buffer goes through untouched
      rw [Dat.leavesExact_idle (dat1 V c) 3 t (idleAt1_3 t (notLast t h1)) (noFlush1_3 t (notLast t h1))]
      rw [outsAt1_mid V c t h0 h1]
      unfold atMid sout1_B; dsimp only
      rw [PhiS1_castSucc V c t, PhiS1_pos V c _ _ hz]
      iintro ⟨⟨⟨H9, HS⟩, Hg⟩, Ho, ⟨%d0, H0⟩, ⟨%d1, H1⟩, ⟨%d2, H2⟩, ⟨%d3, H3⟩⟩
      iapply ((kernelRun1_B c (grid1.coords t) _ _ _ _ _ _ _ _ _ _ (notFirst t h0) (notLast t h1) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [H9 HS Hg]
      · isplitl [H9 HS]
        · isplitl [H9]; · iexact H9
          unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the call (the class invariant) is the invariant before the first position. -/
theorem hin1 (c : Dev nD) : Pipeline.ΦA spec1 c ⊢ (dat1 V c).Φ 0 := by
  show Pipeline.ΦA spec1 c ⊢ PhiS1 V c 0 (Nat.zero_le _)
  exact BI.Entails.refl _

/-- After the last position the invariant gives the class invariant back: the accumulator's contents are forgotten. -/
theorem hout1 (c : Dev nD) : (dat1 V c).Φ (Fin.last cfg1.N) ⊢ Pipeline.ΦA spec1 c := by
  have hlast : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hlast]
  exact (acc_forget c _).trans (PhiA1_close c)

/-! ## The three equations the value side is written over -/

/-- After a first key tile the accumulator is the tile's term added to zeros. -/
theorem sc_A (c : Dev nD) (t : Fin cfg1.N) (h0 : t.val % 4 = 0) :
    (outsAt1 V c t.val t.isLt).2 = k1_pay2 (iblk1 V c 0 t) (iblk1 V c 1 t) (iblk1 V c 2 t) (k1_pay1 (F := F)) := by
  rw [outsAt1_first V c t h0]; unfold atFirst; dsimp only
  exact sout1_A_eq c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t)

/-- After any other key tile it is the tile's term added to what the position before left. -/
theorem sc_BC (c : Dev nD) (t : Fin cfg1.N) (h0 : ¬ t.val % 4 = 0) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 := by
  by_cases h1 : t.val % 4 = 3
  · rw [outsAt1_last V c t h0 h1]; unfold atLast; dsimp only
    exact sout1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2
  · rw [outsAt1_mid V c t h0 h1]; unfold atMid; dsimp only
    exact sout1_B_eq c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) (outsAt1 V c (t.val - 1) (Nat.lt_of_le_of_lt (Nat.sub_le _ _) t.isLt)).2

/-- After a last key tile the output buffer is the accumulator, reshaped. -/
theorem out_C (c : Dev nD) (t : Fin cfg1.N) (h1 : t.val % 4 = 3) : (outsAt1 V c t.val t.isLt).1 = k1_pay3 (outsAt1 V c t.val t.isLt).2 := by
  have h0 : ¬t.val % 4 = 0 := by omega
  rw [outsAt1_last V c t h0 h1]; unfold atLast; dsimp only
  exact (out1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2).trans
    (congrArg k1_pay3 (sout1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2).symm)

end Cert.Kernel.Hand

end
-- ==== Proof.KRun.lean ====
import proofs.«135283_j26594437496900_1_alg».proof.Proof.KReg0
import proofs.«135283_j26594437496900_1_alg».proof.Proof.KReg1
import proofs.«135283_j26594437496900_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole run of @main

@main stacks the three weight matrices and rounds the stack to bf16 (a host stretch), then runs the projection
kernel (θ, φ, g = the three column bands of x·Wᵀ) and the attention kernel (out = Σ over key tiles of
((θ·φᵀ)·κ)·g). This module follows every buffer of a core through those three items: what it holds at each of the
four boundaries, that the four arguments are never written, where the intermediate arrays and the result come
from, and that every fair execution terminates with each unscoped buffer at the last boundary's contents. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch: @main is one host stretch and then the two kernels, in that order

The host stretch stacks the three weight matrices by rows into one [1536,1024] matrix and rounds it to bf16.
The projection kernel multiplies every 512-row block of the input by that matrix (transposed) and writes the
three column bands θ, φ, g. The attention kernel reads θ, φ, g tile by tile and writes the output array.

## What every buffer of a core holds at each of the four boundaries between those three items -/

/-- At the start: the memory the program is launched on. -/
abbrev W0 : Dev nD → Valuation τ sig (Elt F) := fun c b => m (c, b)
/-- After the host stretch (the projection kernel's entry): the stacked weights and their bf16 rounding written,
    every other buffer as at the start. -/
abbrev W1 : Dev nD → Valuation τ sig (Elt F) := fun c => StableHlo.after hostOps0 (W0 m c)
/-- The same, read at the TensorCore's references: the contents the projection kernel's proof data are taken at. -/
abbrev V1 : (c : Dev nD) → (b : Ref sig .tc) → Buf (Elt F) ((c : Thread nD τ).loc b) := fun c b => W1 m c b
/-- After the projection kernel (the attention kernel's entry): each of its five arrays at what its 64 grid points'
    write-backs leave — the two inputs never written, the three bands θ, φ, g assembled block by block — and every
    other buffer as the kernel found it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references: the contents the attention kernel's proof data are taken at. -/
abbrev V2 : (c : Dev nD) → (b : Ref sig .tc) → Buf (Elt F) ((c : Thread nD τ).loc b) := fun c b => W2 m c b
/-- The projection kernel's arrays hold at its exit what its write-backs leave, -/
theorem hF0 (c : Dev nD) (w : Fin cfg0.W) : (dat0 (V1 m) c).arrAt w cfg0.N = V2 m c (Pipeline.arrRef spec0 w) :=
  (W2_arr m c w).symm
/-- and a buffer that is none of its arrays holds what it held at entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention kernel (the end of @main): each of its four arrays at what its 128 grid points'
    write-backs leave — θ, φ, g never written, the output assembled from the blocks flushed at the last key tile of
    each query tile — and every other buffer as the kernel found it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m c b
/-- The attention kernel's arrays hold at its exit what its write-backs leave, -/
theorem hF1 (c : Dev nD) (w : Fin cfg1.W) : (dat1 (V2 m) c).arrAt w cfg1.N = V3 m c (Pipeline.arrRef spec1 w) :=
  (W3_arr m c w).symm
/-- and a buffer that is none of its arrays holds what it held at entry. -/
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### Reading a buffer back through the boundaries

The host stretch writes only the stacked weights and their rounding, so any other buffer is still the launch
memory's after it. -/

theorem W1_of (c : Dev nD) (r : Ref sig .tc) (h : r ∉ hostOps0_W) :
    W1 m c (Proc.devRef .tc r) = m ((c : Thread nD τ).loc r) :=
  StableHlo.after_of_writes_sub hostOps0 _ hostOps0_writes h

/-- The four arguments at the projection kernel's entry are the launch memory's. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V1_main_arg2 (c : Dev nD) : V1 m c main_arg2 = m ((c : Thread nD τ).loc main_arg2) := W1_of m c main_arg2 (by decide)
theorem V1_main_arg3 (c : Dev nD) : V1 m c main_arg3 = m ((c : Thread nD τ).loc main_arg3) := W1_of m c main_arg3 (by decide)

/-- The input x ends as launched: the attention kernel has no window on it; the projection kernel only reads it
    (its window 0 is an input, whose array no write-back touches); the host stretch does not write it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
/-- Each weight matrix ends as launched: neither kernel has a window on it (the kernels read the stacked copy), and
    the host stretch only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ### Where the intermediate arrays and the result come from

The attention kernel finds in θ, φ, g what the projection kernel's write-backs left there (windows 2, 3, 4 of the
projection kernel), and the output array ends at what the attention kernel's write-backs leave (its window 3). -/

theorem V2_main_v2_0 (c : Dev nD) : V2 m c main_v2_0 = (dat0 (V1 m) c).arrAt 2 cfg0.N := W2_arr m c 2
theorem V2_main_v2_1 (c : Dev nD) : V2 m c main_v2_1 = (dat0 (V1 m) c).arrAt 3 cfg0.N := W2_arr m c 3
theorem V2_main_v2_2 (c : Dev nD) : V2 m c main_v2_2 = (dat0 (V1 m) c).arrAt 4 cfg0.N := W2_arr m c 4
theorem W3_main_v3 (c : Dev nD) : W3 m c (Proc.devRef .tc main_v3) = (dat1 (V2 m) c).arrAt 3 cfg1.N := W3_arr m c 3

/-! ## The two kernels' proof data, and what a core holds between items -/

/-- Neither kernel has a prefetched table. -/
abbrev adm : (p : Fin 2) → (pcfgs (F := F) p).Adm := fun p => (cfgs p).toPCfg_adm
/-- The projection kernel's proof data at the contents after the host stretch, the attention kernel's at the
    contents the projection kernel leaves. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core waits on another: no pair of cores is assigned a level. -/
abbrev L : GSem nD τ sig → Finset Unit := fun _ => ∅
abbrev lv : GSem nD τ sig → Unit → ℕ := fun _ _ => 0
/-- Beside its buffers a core holds, between items, its generator register at some state and the record that it
    owes nothing. -/
abbrev R (c : Dev nD) : sProp 𝕄 := iprop((∃ r, prngReg c r) ∗ ∃ W, owes (c : Thread nD τ) (0 : CellTallies nD τ sig Unit) W)
/-- The host stretch as a segment: from every unscoped buffer at the contents W to every unscoped buffer at the
    contents after the operations, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that is not scoped is among the unscoped buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, apart from owing nothing: every unscoped buffer at the last boundary's contents
    and the generator register. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- THE PROJECTION KERNEL between W1 and W2. At entry its five arrays are split off the unscoped buffers and the
    generator register goes into the kernel's invariant beside the scoped buffers; at exit the register comes back
    and the arrays, at what the write-backs leave, rejoin the untouched rest as the unscoped buffers at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION KERNEL between W2 and W3. Its proof data carry their own invariant (the accumulator scratch is
    owned at a known value between grid points), so the register and the scoped buffers are first gathered into the
    plain invariant, which gives the data's invariant at the first point; and the data's invariant at the last point
    gives the plain one back, which is taken apart again. The arrays leave and rejoin the unscoped buffers as in the
    projection kernel. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (V2 m) c
    unfold Pipeline.ΦA at h
    iintro HI
    ihave H := h $$ HI
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three segments, and the run -/

/-- @main's three items in order: the host stretch from the launch contents, the projection kernel, the attention kernel. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of those segments: it is the chain of its three items, and the segments' run is the same chain. -/
theorem main_run (c : Dev nD) : main (F := F) c = Pipeline.Seg.run (segs m) := (main_chain c).trans (by chain_rfl)

set_option backward.isDefEq.respectTransparency.types false in
/-- THE RUN. From any memory with every counter at zero, every weakly fair execution of @main on the TensorCores
    terminates without fault, and in every final state each unscoped buffer of each core holds the last boundary's
    contents W3: the launch deals each core its unscoped buffers at W0, its register and owing nothing; the three
    segments chain W0 → W1 → W2 → W3; at the end the held buffers are read against the final memory. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the run, read at the four argument arrays — each is an unscoped buffer, and the last boundary's
    contents at it are the launch memory's. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m c),
     (hr c _ (mem_uc main_arg1 (by decide))).trans (W3_main_arg1 m c),
     (hr c _ (mem_uc main_arg2 (by decide))).trans (W3_main_arg2 m c),
     (hr c _ (mem_uc main_arg3 (by decide))).trans (W3_main_arg3 m c)⟩) (run_all m ρ)

end Cert.Kernel.Hand

end
-- ==== Proof.KiReg0.lean ====
import proofs.«135283_j26594437496900_1_alg».proof.Proof.Gen.KernelIdeal.Launch
import proofs.«135283_j26594437496900_1_alg».proof.Proof.Gen.KernelIdeal.Skeleton
import proofs.«135283_j26594437496900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection region, point by point

The first region computes, for each batch `b` and each tile of 512 rows, the product `y = x · Wᵀ` of the
row tile `x` ([512, 1024]) with the stacked weight `W` ([1536, 1024]), and writes the three column bands of
`y` — columns 0–255 (θ), 256–511 (φ), 512–1535 (g) — into three output blocks. This module states what one
grid point does, for ANY contents `V` of the buffers at the region's entry: the row tile and the weight are
left as found, and each output block becomes the corresponding band of the product of the two input blocks. -/

-- membership of an index in a rectangle with axes of length 512, 1024, 1536 is checked coordinate by coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the projection region is entered: everything below is stated at this parameter
variable (V : (c : Dev nD) → (b : Ref sig .tc) → Buf (Elt F) ((c : Thread nD τ).loc b))

/-! ## The blocks of the five windows -/

/-- Window `w`'s block at grid point `t`, read off its array at the entry contents: for the row-tile windows
    (0, 2, 3, 4) the 512 rows of batch `b` starting at row `512·i`, where `t = 8·b + i`; for the weight
    window (1) the whole stacked weight, whatever the point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile input's staging buffer holds the tile of the current point at every point, for any proof data
    whose array is the entry contents and whose body leaves that buffer in place: the tile is fetched afresh at
    every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point, under the same two hypotheses: it is
    fetched at the first point only, and where it is not fetched its block index has not moved (it never does),
    so what the body left in place is still the block a fetch would bring. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

/-- The whole [1, 512, 1024] buffer: the row tile `x` as read, and the g band as written. -/
abbrev r0_x : Rect S1x512x1024 := Rect.unit (s := S1x512x1024) ![0, 0, 0] S1x512x1024.size inb_S1x512x1024_S1x512x1024_0_0_0
/-- The whole [1536, 1024] buffer: the stacked weight `W` as read. -/
abbrev r0_w : Rect S1536x1024 := Rect.unit (s := S1536x1024) ![0, 0] S1536x1024.size inb_S1536x1024_S1536x1024_0_0
/-- The whole [1, 512, 256] buffer: the θ band and the φ band as written. -/
abbrev r0_a : Rect S1x512x256 := Rect.unit (s := S1x512x256) ![0, 0, 0] S1x512x256.size inb_S1x512x256_S1x512x256_0_0_0

/-! ## What the body leaves in the three output buffers -/

/-- The θ buffer after the body: columns 0–255 of `x · Wᵀ`, one store over the whole buffer. -/
def out0_2 (x0 : Vec F S1x512x1024 .f32) (x1 : Vec F S1536x1024 .bf16) : Vec F S1x512x256 .bf16 :=
  View.canon [⟨r0_a, k0_pay2 (View.ld x0 r0_x) (View.ld x1 r0_w)⟩]
/-- The φ buffer after the body: columns 256–511 of `x · Wᵀ`, one store over the whole buffer. -/
def out0_3 (x0 : Vec F S1x512x1024 .f32) (x1 : Vec F S1536x1024 .bf16) : Vec F S1x512x256 .bf16 :=
  View.canon [⟨r0_a, k0_pay3 (View.ld x0 r0_x) (View.ld x1 r0_w)⟩]
/-- The g buffer after the body: columns 512–1535 of `x · Wᵀ`, one store over the whole buffer. -/
def out0_4 (x0 : Vec F S1x512x1024 .f32) (x1 : Vec F S1536x1024 .bf16) : Vec F S1x512x1024 .bf16 :=
  View.canon [⟨r0_x, k0_pay4 (View.ld x0 r0_x) (View.ld x1 r0_w)⟩]

/-- One store over the whole [1, 512, 256] buffer covers it. -/
theorem cover0_a (p0 : Vec F S1x512x256 .bf16) (y : S1x512x256.Idx) :
    ∃ pc ∈ ([⟨r0_a, p0⟩] : List (View.Piece (Elt F) S1x512x256 .bf16)), y ∈ pc.1.set :=
  View.cover_of_tiled [⟨r0_a, p0⟩] S1x512x256.size (by rfl) y

/-- One store over the whole [1, 512, 1024] buffer covers it. -/
theorem cover0_g (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-! ## The body's triple -/

set_option maxHeartbeats 1000000 in
/-- The body on whole buffers, the two inputs' holding `x0` and `x1` and the three outputs' holding anything,
    runs to the continuation with the inputs' as they were and the outputs' at the three bands of the product
    of `x0` and `x1`. What the body reads of an output buffer before overwriting it is used nowhere. -/
theorem sound_kernel0 (c : Dev nD) (E : Set ℕ) (i : grid0.Coords)
    (arg2 : Memref sig .tc .vmem S1x512x1024 .f32) (harg2 : arg2.IsWhole) (arg3 : Memref sig .tc .vmem S1536x1024 .bf16) (harg3 : arg3.IsWhole)
    (arg4 : Memref sig .tc .vmem S1x512x256 .bf16) (harg4 : arg4.IsWhole) (arg5 : Memref sig .tc .vmem S1x512x256 .bf16) (harg5 : arg5.IsWhole)
    (arg6 : Memref sig .tc .vmem S1x512x1024 .bf16) (harg6 : arg6.IsWhole)
    (x0 : Vec F S1x512x1024 .f32) (x1 : Vec F S1536x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_a _)
  isplitl [H3]
  · iexists _; isplitr
    swap; · iexact H3
    ipureintro
    exact View.read_writes_eq_canon _ _ _ (cover0_a _)
  iexists _; isplitr
  swap; · iexact H4
  ipureintro
  exact View.read_writes_eq_canon _ _ _ (cover0_g _)

/-! ## The region's proof data -/

/-- The proof data of the projection region on core `c`: the arrays as the region finds them; after the body at
    point `t` the two inputs' buffers at their blocks and the three outputs' at the bands of the product of those
    two blocks; the invariant is the scoped remainder and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies at those two
    blocks; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiReg1Runs.lean ====
/-
  The attention call on one core: what its three control cases share.

  Its grid is [8, 4, 4] — batch b, query tile qi, key tile ki — walked with ki fastest, so position
  t = (b·4 + qi)·4 + ki has ki = t mod 4. Between positions the body keeps a [1024, 1024] accumulator:
    ki = 0     the accumulator is zeroed, then the tile's term ((θ·φᵀ)·κ)·g is added to it;
    ki = 1, 2  the tile's term is added;
    ki = 3     the tile's term is added and the accumulator is stored as the output block of (b, qi).
  This module has: the block each input window shows at a position; the two branch conditions in closed
  form over the grid; where the output window is idle; the memrefs the body is called on; and the class
  invariant opened into the projection call's nine staging buffers (never touched here), the accumulator,
  and the generator register.
-/
import proofs.«135283_j26594437496900_1_alg».proof.Proof.Gen.KernelIdeal.Launch
import proofs.«135283_j26594437496900_1_alg».proof.Proof.Gen.KernelIdeal.Skeleton
import proofs.«135283_j26594437496900_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at position `t`, read off its array as the call finds it (`V`): for θ the rows of query
    tile qi of batch b, for φ and g the rows of key tile ki of batch b. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- θ's staging buffer holds the query tile's block at EVERY position, although it is fetched only where ki = 0:
    at the other three positions of a query tile the block index has not moved, and the body leaves the buffer
    as it found it. For any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  refine (dat.before_in_eq_fetched 0 rfl (fun _ => rfl) (fun _ _ _ => rfl) (fun t => ?_) t d).trans ?_
  · rw [hafter]; unfold Dat.blockOf iblk1; rw [hA]; try rfl
  · unfold Dat.fetched Dat.blockOf iblk1; rw [hA]; try rfl

/-- φ's staging buffer holds the key tile's block (fetched at every position). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  refine (dat.before_in_eq_fetched 1 rfl (fun _ => rfl) (fun _ _ _ => rfl) (fun t => ?_) t d).trans ?_
  · rw [hafter]; unfold Dat.blockOf iblk1; rw [hA]; try rfl
  · unfold Dat.fetched Dat.blockOf iblk1; rw [hA]; try rfl

/-- g's staging buffer holds the key tile's block (fetched at every position). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  refine (dat.before_in_eq_fetched 2 rfl (fun _ => rfl) (fun _ _ _ => rfl) (fun t => ?_) t d).trans ?_
  · rw [hafter]; unfold Dat.blockOf iblk1; rw [hA]; try rfl
  · unfold Dat.fetched Dat.blockOf iblk1; rw [hA]; try rfl

/-! ## The two branch conditions -/

/-- "This is the first key tile": the word the body tests before zeroing the accumulator, from the grid
    coordinates (ki = 0, as the chain of integer comparisons the body computes). -/
abbrev firstTile (i : grid1.Coords) : Prop := (Scalar.cmpi .ne (Scalar.extui (Scalar.cmpi .eq (BitVec.ofNat 32 (i 2).val) 0#32)) 0#32) = 1#1
/-- It holds exactly at the positions ≡ 0 (mod 4). -/
theorem firstTile_iff : ∀ t : Fin cfg1.N, firstTile (grid1.coords t) ↔ t.val % 4 = 0 :=
  (by decide +kernel : ∀ t : Fin grid1.N, firstTile (grid1.coords t) ↔ t.val % 4 = 0)

/-- "This is the last key tile": the word the body tests before storing the output block (ki = 3). -/
abbrev lastTile (i : grid1.Coords) : Prop := k1_cond2 i = 1#1
/-- It holds exactly at the positions ≡ 3 (mod 4). -/
theorem lastTile_iff : ∀ t : Fin cfg1.N, lastTile (grid1.coords t) ↔ t.val % 4 = 3 :=
  (by decide +kernel : ∀ t : Fin grid1.N, lastTile (grid1.coords t) ↔ t.val % 4 = 3)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key tile the output window is idle (nothing is stored into it) … -/
theorem idleAt1_3 : ∀ t : Fin cfg1.N, ¬lastTile (grid1.coords t) → cfg1.idle 3 (grid1.coords t) = true := by decide +kernel
/-- … and the pipeline does not write its block back. -/
theorem noFlush1_3 : ∀ t : Fin cfg1.N, ¬lastTile (grid1.coords t) → (cfg1.win 3).flush t = false := by decide +kernel
/-- On the last key tile the output window is live. -/
theorem liveAt1_3 : ∀ t : Fin cfg1.N, lastTile (grid1.coords t) → cfg1.idle 3 (grid1.coords t) = false := by decide +kernel

/-! ## The memrefs the body is called on -/

/-- One staging buffer of the output window, through which its contents are stated (which one does not matter). -/
abbrev VO1_3 : View sig .tc .vmem S1x1024x1024 .f32 := (Memref.whole cc1_stg3_0 : Memref sig .tc .vmem S1x1024x1024 .f32).view
/-- Each window's current staging memref at position `t`, as the pipeline passes it, and its wholeness. -/
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The accumulator: a whole scoped buffer of the call's own, passed beside the windows and carried between positions. -/
abbrev scM1 : Memref sig .tc .vmem S1024x1024 .f32 := Memref.whole cc1_scratch0
/-- The accumulator as a view: what it holds is stated through it. -/
abbrev VS1 : View sig .tc .vmem S1024x1024 .f32 := scM1.view

/-! ## The class invariant, opened -/

/-- The projection call's nine staging buffers, each whole at some contents. They are scoped buffers of the
    core that are no staging buffer of the attention call, so its invariant carries them; it never touches them. -/
def projStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant hands out: the nine untouched buffers, the accumulator at some contents, the generator register. -/
theorem PhiA1_open (c : Dev nD) :
    (Pipeline.ΦA spec1 c : sProp 𝕄)
      ⊢ iprop(iprop(projStaging (F := F) c ∗ (∃ d, owns (c : Thread nD τ) scM1 fullShare d)) ∗ (∃ r, prngReg c r)) := by
  unfold Pipeline.ΦA projStaging; rw [scopedRest1_eq]; simp only [scM1, owns_whole]
  iintro ⟨⟨H1, H2, H3, H4, H5, H6, H7, H8, H9, HS⟩, Hg⟩
  iframe

/-- And takes the same three back. -/
theorem PhiA1_close (c : Dev nD) :
    (iprop(iprop(projStaging (F := F) c ∗ (∃ d, owns (c : Thread nD τ) scM1 fullShare d)) ∗ (∃ r, prngReg c r)) : sProp 𝕄)
      ⊢ Pipeline.ΦA spec1 c := by
  unfold Pipeline.ΦA projStaging; rw [scopedRest1_eq]; simp only [scM1, owns_whole]
  iintro ⟨⟨⟨H1, H2, H3, H4, H5, H6, H7, H8, H9⟩, HS⟩, Hg⟩
  iframe

end Cert.KernelIdeal.Hand

end
-- ==== Proof.KiReg1RunA.lean ====
/-
  The attention body at a FIRST key tile (ki = 0), run whole on any whole memrefs.
  With the three input buffers at x0 (θ block), x1 (φ block), x2 (g block), the output buffer at anything
  (it is handed back untouched: nothing is stored into it here) and the accumulator at anything, the body
  zeroes the accumulator and then stores into it the sum of what it just wrote and the tile's term. The
  stores it performs on the accumulator, as a list of pieces (last first), are the witness the symbolic
  run of the body's memory operations finds.
-/
import proofs.«135283_j26594437496900_1_alg».proof.Proof.KiReg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First key tile: the pieces stored into the output buffer (none) and into the accumulator, with the
    body's triple over them. -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i)
    (x0 : Vec F S1x1024x256 .bf16) (x1 : Vec F S1x1024x256 .bf16) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KiReg1RunB.lean ====
/-
  The attention body at a MIDDLE key tile (ki = 1 or 2), run whole on any whole memrefs.
  With the input buffers at x0, x1, x2, the output buffer at anything (handed back untouched) and the
  accumulator at xs — what the position before left —, the body stores into the accumulator xs plus the
  tile's term. The pieces stored are the witness the symbolic run finds.
-/
import proofs.«135283_j26594437496900_1_alg».proof.Proof.KiReg1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Middle key tile: the pieces stored into the output buffer (none) and into the accumulator, with the
    body's triple over them. -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i)
    (x0 : Vec F S1x1024x256 .bf16) (x1 : Vec F S1x1024x256 .bf16) (x2 : Vec F S1x1024x1024 .bf16) (xs : Vec F S1024x1024 .f32) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KiReg1RunC.lean ====
/-
  The attention body at a LAST key tile (ki = 3), run whole on any whole memrefs.
  With the input buffers at x0, x1, x2, the output buffer at anything and the accumulator at xs, the body
  stores into the accumulator xs plus the tile's term, reads it back, and stores what it read, reshaped to
  [1, 1024, 1024], over the whole output buffer. The pieces stored into each are the witness the symbolic
  run finds.
-/
import proofs.«135283_j26594437496900_1_alg».proof.Proof.KiReg1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Last key tile: the pieces stored into the output buffer and into the accumulator, with the body's
    triple over them. -/
noncomputable def kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i)
    (x0 : Vec F S1x1024x256 .bf16) (x1 : Vec F S1x1024x256 .bf16) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__attn_kernel i arg3 harg3 arg4 harg4 arg5 harg5 arg6 harg6 arg7 harg7) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KiReg1.lean ====
/-
  The attention call on one core, at the buffer contents `V` it is entered with: what the output buffer
  and the accumulator hold after every position, the proof data of its pipeline, and the body obligation.

  After position t the accumulator holds
    ki = 0 :  pay2(θ-block, φ-block, g-block, zeros)                       (zeros = pay1)
    ki > 0 :  pay2(θ-block, φ-block, g-block, accumulator after t − 1)
  where pay2(θ, φ, g, s) = s + ((θ·φᵀ)·κ)·g is the payload of the body's accumulating store, and at ki = 3 the
  output buffer holds pay3(accumulator after t), the accumulator reshaped to [1, 1024, 1024]. These three
  equations (`sc_A`, `sc_BC`, `out_C`) are all the value side needs of this module.
-/
import proofs.«135283_j26594437496900_1_alg».proof.Proof.KiReg1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a position, from its residue mod 4 -/

theorem isFirst (t : Fin cfg1.N) (h0 : t.val % 4 = 0) : firstTile (grid1.coords t) := (firstTile_iff t).mpr h0
theorem notFirst (t : Fin cfg1.N) (h0 : ¬t.val % 4 = 0) : ¬firstTile (grid1.coords t) := fun h => h0 ((firstTile_iff t).mp h)
theorem isLast (t : Fin cfg1.N) (h1 : t.val % 4 = 3) : lastTile (grid1.coords t) := (lastTile_iff t).mpr h1
theorem notLast (t : Fin cfg1.N) (h1 : ¬t.val % 4 = 3) : ¬lastTile (grid1.coords t) := fun h => h1 ((lastTile_iff t).mp h)
/-- A first key tile is not a last one. -/
theorem notLast_of_first (t : Fin cfg1.N) (h0 : t.val % 4 = 0) : ¬lastTile (grid1.coords t) :=
  notLast t (fun h1 => by omega)

/-! ## What each case leaves, read back from the pieces its run found -/

/-- First key tile: nothing is stored into the output buffer; a placeholder nothing consults (the window is
    idle there and its block is not written back). -/
def out1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) : Vec F S1x1024x1024 .f32 :=
  VO1_3.read (Elt F) (VO1_3.writes (Elt F) VO1_3.junk (kernelRun1_A c i arg3 harg3 arg4 harg4 arg5 harg5 arg6 harg6 arg7 harg7 hc0 hc1 x0 x1 x2).1)
/-- First key tile: the pieces stored into the accumulator cover it. -/
theorem scover1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- First key tile: what the accumulator holds afterwards. -/
def sout1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Middle key tile: nothing is stored into the output buffer; a placeholder nothing consults. -/
def out1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 hc0 hc1 x0 x1 x2 xs).1)
/-- Middle key tile: the piece stored into the accumulator covers it. -/
theorem scover1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) (y : S1024x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S1024x1024.size (by sl_kernel_rfl) y
/-- Middle key tile: what the accumulator holds afterwards. -/
def sout1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).2.1)

/-- Last key tile: the piece stored into the output buffer covers it. -/
theorem cover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) (y : S1x1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1x1024x1024.size (by sl_kernel_rfl) y
/-- Last key tile: what the output buffer holds afterwards. -/
def out1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 hc0 hc1 x0 x1 x2 xs).1)
/-- Last key tile: the piece stored into the accumulator covers it. -/
theorem scover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y
/-- Last key tile: what the accumulator holds afterwards. -/
def sout1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-! ## The pieces, as payloads of the input blocks -/

theorem attnOff2 : (![0, 0] : Fin 2 → Nat) = fun _ => 0 := funext fun a => by fin_cases a <;> rfl
theorem attnOff3 : (![0, 0, 0] : Fin 3 → Nat) = fun _ => 0 := funext fun a => by fin_cases a <;> rfl

/-- First key tile: the accumulator ends at the accumulating payload over zeros. Of the two whole-buffer stores the
    later one decides; what it read back of the accumulator is the earlier store's payload, the zeros. -/
theorem sout1_A_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : firstTile i) (hc1 : ¬lastTile i) (x0 : Vec F S1x1024x256 .bf16) (x1 : Vec F S1x1024x256 .bf16) (x2 : Vec F S1x1024x1024 .bf16) :
    sout1_A c i arg3 harg3 arg4 harg4 arg5 harg5 arg6 harg6 arg7 harg7 hc0 hc1 x0 x1 x2 = k1_pay2 x0 x1 x2 (k1_pay1 (F := F)) := by
  unfold sout1_A
  rw [View.read_writes_junk_eq_canon]
  unfold kernelRun1_A
  dsimp only
  sl_unfold_words
  rw [View.canon_cons_unit_zero (S := S1024x1024) attnOff2, View.readCov_unit_zero (S := S1024x1024) _ attnOff2]
  simp only [View.readAt_eq_ld, harg3.read_unread, harg4.read_unread, harg5.read_unread, View.ld_unit_zero (S := S1x1024x256) attnOff3, View.ld_unit_zero (S := S1x1024x1024) attnOff3]

/-- Middle key tile: the accumulator ends at the accumulating payload over what it held. -/
theorem sout1_B_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : ¬lastTile i) (x0 : Vec F S1x1024x256 .bf16) (x1 : Vec F S1x1024x256 .bf16) (x2 : Vec F S1x1024x1024 .bf16) (xs : Vec F S1024x1024 .f32) :
    sout1_B c i arg3 harg3 arg4 harg4 arg5 harg5 arg6 harg6 arg7 harg7 hc0 hc1 x0 x1 x2 xs = k1_pay2 x0 x1 x2 xs := by
  unfold sout1_B
  rw [View.read_writes_junk_eq_canon]
  unfold kernelRun1_B
  dsimp only
  sl_unfold_words
  rw [View.canon_unit_zero (S := S1024x1024) attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-- Last key tile: the accumulator likewise. -/
theorem sout1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) :
    sout1_C c i arg3 harg3 arg4 harg4 arg5 harg5 arg6 harg6 arg7 harg7 hc0 hc1 x0 x1 x2 xs = k1_pay2 x0 x1 x2 xs := by
  unfold sout1_C
  rw [View.read_writes_junk_eq_canon]
  unfold kernelRun1_C
  dsimp only
  sl_unfold_words
  rw [View.canon_unit_zero (S := S1024x1024) attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-- Last key tile: the output buffer ends at the reshaping payload of the accumulator as just stored. -/
theorem out1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬firstTile i) (hc1 : lastTile i) (x0 : Vec F S1x1024x256 .bf16) (x1 : Vec F S1x1024x256 .bf16) (x2 : Vec F S1x1024x1024 .bf16) (xs : Vec F S1024x1024 .f32) :
    out1_C c i arg3 harg3 arg4 harg4 arg5 harg5 arg6 harg6 arg7 harg7 hc0 hc1 x0 x1 x2 xs = k1_pay3 (k1_pay2 x0 x1 x2 xs) := by
  unfold out1_C
  rw [View.read_writes_junk_eq_canon]
  unfold kernelRun1_C
  dsimp only
  sl_unfold_words
  rw [View.canon_unit_zero (S := S1x1024x1024) attnOff3, View.readCov_unit_zero (S := S1024x1024) _ attnOff2]
  simp only [View.readAt_eq_ld, harg3.read_unread, harg4.read_unread, harg5.read_unread, harg7.read_unread, View.ld_unit_zero (S := S1x1024x256) attnOff3, View.ld_unit_zero (S := S1x1024x1024) attnOff3, View.ld_unit_zero (S := S1024x1024) attnOff2]

/-! ## The accumulation, position by position -/

/-- (output buffer, accumulator) after a first key tile at position `t`: the case run on the position's memrefs
    and input blocks. -/
def atFirst (c : Dev nD) (t : Fin cfg1.N) (h0 : t.val % 4 = 0) : Vec F S1x1024x1024 .f32 × Vec F S1024x1024 .f32 :=
  (out1_A c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t))
/-- The same after a middle key tile, the accumulator found at `xs`. -/
def atMid (c : Dev nD) (t : Fin cfg1.N) (h0 : ¬t.val % 4 = 0) (h1 : ¬t.val % 4 = 3) (xs : Vec F S1024x1024 .f32) : Vec F S1x1024x1024 .f32 × Vec F S1024x1024 .f32 :=
  (out1_B c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) xs)
/-- The same after a last key tile, the accumulator found at `xs`. -/
def atLast (c : Dev nD) (t : Fin cfg1.N) (h0 : ¬t.val % 4 = 0) (h1 : t.val % 4 = 3) (xs : Vec F S1024x1024 .f32) : Vec F S1x1024x1024 .f32 × Vec F S1024x1024 .f32 :=
  (out1_C c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) xs,
   sout1_C c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) xs)

/-- What the output window's staging buffer and the accumulator hold after the body at position `n`: the case
    n mod 4 selects, a middle or last tile starting from the accumulator the position before left. -/
def outsAt1 (c : Dev nD) : (n : ℕ) → n < cfg1.N → Vec F S1x1024x1024 .f32 × Vec F S1024x1024 .f32
  | 0, hn => atFirst V c ⟨0, hn⟩ (Nat.zero_mod 4)
  | n + 1, hn =>
    if h0 : (n + 1) % 4 = 0 then atFirst V c ⟨n + 1, hn⟩ h0
    else if h1 : (n + 1) % 4 = 3 then atLast V c ⟨n + 1, hn⟩ h0 h1 (outsAt1 c n (Nat.lt_of_succ_lt hn)).2
    else atMid V c ⟨n + 1, hn⟩ h0 h1 (outsAt1 c n (Nat.lt_of_succ_lt hn)).2

/-- `outsAt1` at a first key tile. -/
theorem outsAt1_first (c : Dev nD) (t : Fin cfg1.N) (h0 : t.val % 4 = 0) :
    outsAt1 V c t.val t.isLt = atFirst V c t h0 := by
  obtain ⟨n, hn⟩ := t
  cases n with
  | zero => rfl
  | succ n => exact dif_pos h0
/-- `outsAt1` at a middle key tile, over what the position before left. -/
theorem outsAt1_mid (c : Dev nD) (t : Fin cfg1.N) (h0 : ¬t.val % 4 = 0) (h1 : ¬t.val % 4 = 3) :
    outsAt1 V c t.val t.isLt = atMid V c t h0 h1 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans (dif_neg h1)
/-- `outsAt1` at a last key tile, over what the position before left. -/
theorem outsAt1_last (c : Dev nD) (t : Fin cfg1.N) (h0 : ¬t.val % 4 = 0) (h1 : t.val % 4 = 3) :
    outsAt1 V c t.val t.isLt = atLast V c t h0 h1 (outsAt1 V c (t.val - 1) (Nat.lt_of_le_of_lt (Nat.sub_le _ _) t.isLt)).2 := by
  obtain ⟨n, hn⟩ := t
  cases n with
  | zero => exact absurd (Nat.zero_mod 4) h0
  | succ n => exact (dif_neg h0).trans (dif_pos h1)

/-! ## The invariant between positions -/

/-- Before position `n`: at the start the class invariant (the accumulator at anything); afterwards the nine
    untouched buffers, the accumulator at what position n − 1 left in it, and the generator register. -/
def PhiS1 (c : Dev nD) : (n : ℕ) → n ≤ cfg1.N → sProp 𝕄
  | 0, _ => Pipeline.ΦA spec1 c
  | n + 1, hn => iprop(iprop(projStaging (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(projStaging (F := F) c ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop(projStaging (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

/-- The attention pipeline's proof data on core `c`: the arrays as the call finds them (`V`); after the body
    at position `t` each input's buffer at its block, the output's at `outsAt1`'s first component; the invariant
    `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every position. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at any position -/

/-- What the body is called with at position `t`: the invariant, the dues, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- And what it returns: the invariant one position on, the same dues, each window's buffer at what the proof
    data say the body leaves. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- What the body leaves in each input's buffer is its block (the inputs are never idle). -/
theorem leaves1_0 (c : Dev nD) (t : Fin cfg1.N) : (dat1 V c).leavesExact 0 t = owns (c : Thread nD τ) (ms1_0 t) fullShare (iblk1 V c 0 t) :=
  (show _ = owns (c : Thread nD τ) (ms1_0 t) fullShare ((dat1 V c).after 0 t) from by unfold Dat.leavesExact; rw [liveAt1_0 t]).trans (by rw [after1_0])
theorem leaves1_1 (c : Dev nD) (t : Fin cfg1.N) : (dat1 V c).leavesExact 1 t = owns (c : Thread nD τ) (ms1_1 t) fullShare (iblk1 V c 1 t) :=
  (show _ = owns (c : Thread nD τ) (ms1_1 t) fullShare ((dat1 V c).after 1 t) from by unfold Dat.leavesExact; rw [liveAt1_1 t]).trans (by rw [after1_1])
theorem leaves1_2 (c : Dev nD) (t : Fin cfg1.N) : (dat1 V c).leavesExact 2 t = owns (c : Thread nD τ) (ms1_2 t) fullShare (iblk1 V c 2 t) :=
  (show _ = owns (c : Thread nD τ) (ms1_2 t) fullShare ((dat1 V c).after 2 t) from by unfold Dat.leavesExact; rw [liveAt1_2 t]).trans (by rw [after1_2])

/-- The accumulator's contents may be forgotten. -/
theorem acc_forget (c : Dev nD) (X : Vec F S1024x1024 .f32) :
    (iprop(iprop(projStaging (F := F) c ∗ owns (c : Thread nD τ) scM1 fullShare X) ∗ (∃ r, prngReg c r)) : sProp 𝕄)
      ⊢ iprop(iprop(projStaging (F := F) c ∗ (∃ d, owns (c : Thread nD τ) scM1 fullShare d)) ∗ (∃ r, prngReg c r)) := by
  iintro ⟨⟨H9, HS⟩, Hg⟩
  isplitr [Hg]
  · isplitl [H9]; · iexact H9
    iexists _; iexact HS
  · iexact Hg

/-- Before ANY position the invariant lends the accumulator at SOME contents (all a first key tile needs, since it
    overwrites the accumulator before reading it): at position 0 by opening the class invariant, later by forgetting
    what the position before left. -/
theorem Phi1_lend (c : Dev nD) (t : Fin cfg1.N) :
    (dat1 V c).Φ t.castSucc ⊢ iprop(iprop(projStaging (F := F) c ∗ (∃ d, owns (c : Thread nD τ) scM1 fullShare d)) ∗ (∃ r, prngReg c r)) := by
  rw [PhiS1_castSucc]
  by_cases hz : t.val = 0
  · rw [PhiS1_zero V c _ _ hz]; exact PhiA1_open c
  · rw [PhiS1_pos V c _ _ hz]; exact acc_forget c _

/-- The body at any position: the inputs' buffers hold their blocks; t mod 4 says which case runs; the
    invariant lends the accumulator (at anything at position 0, else at what the position before left) and
    takes it back at this position's contents; the output buffer comes back untouched off the last key tile
    and with the accumulator's reshaped copy on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 4 = 0
  · -- a first key tile: the accumulator is lent at anything; the output buffer goes through untouched
    rw [Dat.leavesExact_idle (dat1 V c) 3 t (idleAt1_3 t (notLast_of_first t h0)) (noFlush1_3 t (notLast_of_first t h0))]
    rw [outsAt1_first V c t h0]
    unfold atFirst sout1_A; dsimp only
    refine (sep_mono (Phi1_lend V c t) .rfl).trans ?_
    iintro ⟨⟨⟨H9, HS⟩, Hg⟩, Ho, ⟨%d0, H0⟩, ⟨%d1, H1⟩, ⟨%d2, H2⟩, ⟨%d3, H3⟩⟩
    iapply ((kernelRun1_A c (grid1.coords t) _ _ _ _ _ _ _ _ _ _ (isFirst t h0) (notLast_of_first t h0) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [H9 HS Hg]
    · isplitl [H9 HS]
      · isplitl [H9]; · iexact H9
        unfold owns; iexists _; isplitr
        swap; · iexact HS
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · -- a last key tile: the accumulator is lent at what the position before left; the output buffer is stored whole
      rw [show (dat1 V c).leavesExact 3 t = owns (c : Thread nD τ) (ms1_3 t) fullShare ((dat1 V c).after 3 t) from by
        unfold Dat.leavesExact; rw [liveAt1_3 t (isLast t h1)], after1_3]
      rw [outsAt1_last V c t h0 h1]
      unfold atLast out1_C sout1_C; dsimp only
      rw [PhiS1_castSucc V c t, PhiS1_pos V c _ _ hz]
      iintro ⟨⟨⟨H9, HS⟩, Hg⟩, Ho, ⟨%d0, H0⟩, ⟨%d1, H1⟩, ⟨%d2, H2⟩, ⟨%d3, H3⟩⟩
      iapply ((kernelRun1_C c (grid1.coords t) _ _ _ _ _ _ _ _ _ _ (notFirst t h0) (isLast t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [H9 HS Hg]
      · isplitl [H9 HS]
        · isplitl [H9]; · iexact H9
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle key tile: the accumulator is lent at what the position before left; the output buffer goes through untouched
      rw [Dat.leavesExact_idle (dat1 V c) 3 t (idleAt1_3 t (notLast t h1)) (noFlush1_3 t (notLast t h1))]
      rw [outsAt1_mid V c t h0 h1]
      unfold atMid sout1_B; dsimp only
      rw [PhiS1_castSucc V c t, PhiS1_pos V c _ _ hz]
      iintro ⟨⟨⟨H9, HS⟩, Hg⟩, Ho, ⟨%d0, H0⟩, ⟨%d1, H1⟩, ⟨%d2, H2⟩, ⟨%d3, H3⟩⟩
      iapply ((kernelRun1_B c (grid1.coords t) _ _ _ _ _ _ _ _ _ _ (notFirst t h0) (notLast t h1) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [H9 HS Hg]
      · isplitl [H9 HS]
        · isplitl [H9]; · iexact H9
          unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the call (the class invariant) is the invariant before the first position. -/
theorem hin1 (c : Dev nD) : Pipeline.ΦA spec1 c ⊢ (dat1 V c).Φ 0 := by
  show Pipeline.ΦA spec1 c ⊢ PhiS1 V c 0 (Nat.zero_le _)
  exact BI.Entails.refl _

/-- After the last position the invariant gives the class invariant back: the accumulator's contents are forgotten. -/
theorem hout1 (c : Dev nD) : (dat1 V c).Φ (Fin.last cfg1.N) ⊢ Pipeline.ΦA spec1 c := by
  have hlast : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hlast]
  exact (acc_forget c _).trans (PhiA1_close c)

/-! ## The three equations the value side is written over -/

/-- After a first key tile the accumulator is the tile's term added to zeros. -/
theorem sc_A (c : Dev nD) (t : Fin cfg1.N) (h0 : t.val % 4 = 0) :
    (outsAt1 V c t.val t.isLt).2 = k1_pay2 (iblk1 V c 0 t) (iblk1 V c 1 t) (iblk1 V c 2 t) (k1_pay1 (F := F)) := by
  rw [outsAt1_first V c t h0]; unfold atFirst; dsimp only
  exact sout1_A_eq c (grid1.coords t) (ms1_0 t) (hs1_0 t) (ms1_1 t) (hs1_1 t) (ms1_2 t) (hs1_2 t) (ms1_3 t) (hs1_3 t) scM1 (Memref.isWhole_whole _) (isFirst t h0) (notLast_of_first t h0) (iblk1 V c 0 t) (iblk1 V c 1 t) (iblk1 V c 2 t)

/-- After any other key tile it is the tile's term added to what the position before left. -/
theorem sc_BC (c : Dev nD) (t : Fin cfg1.N) (h0 : ¬ t.val % 4 = 0) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 := by
  by_cases h1 : t.val % 4 = 3
  · rw [outsAt1_last V c t h0 h1]; unfold atLast; dsimp only
    exact sout1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2
  · rw [outsAt1_mid V c t h0 h1]; unfold atMid; dsimp only
    exact sout1_B_eq c (grid1.coords t) (ms1_0 t) (hs1_0 t) (ms1_1 t) (hs1_1 t) (ms1_2 t) (hs1_2 t) (ms1_3 t) (hs1_3 t) scM1 (Memref.isWhole_whole _) (notFirst t h0) (notLast t h1) (iblk1 V c 0 t) (iblk1 V c 1 t) (iblk1 V c 2 t) (outsAt1 V c (t.val - 1) (Nat.lt_of_le_of_lt (Nat.sub_le _ _) t.isLt)).2

/-- After a last key tile the output buffer is the accumulator, reshaped. -/
theorem out_C (c : Dev nD) (t : Fin cfg1.N) (h1 : t.val % 4 = 3) : (outsAt1 V c t.val t.isLt).1 = k1_pay3 (outsAt1 V c t.val t.isLt).2 := by
  have h0 : ¬t.val % 4 = 0 := by omega
  rw [outsAt1_last V c t h0 h1]; unfold atLast; dsimp only
  exact (out1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2).trans
    (congrArg k1_pay3 (sout1_C_eq c (grid1.coords t) (ms1_0 t) (hs1_0 t) (ms1_1 t) (hs1_1 t) (ms1_2 t) (hs1_2 t) (ms1_3 t) (hs1_3 t) scM1 (Memref.isWhole_whole _) (notFirst t h0) (isLast t h1) (iblk1 V c 0 t) (iblk1 V c 1 t) (iblk1 V c 2 t) (outsAt1 V c (t.val - 1) (Nat.lt_of_le_of_lt (Nat.sub_le _ _) t.isLt)).2).symm)

end Cert.KernelIdeal.Hand

end
-- ==== Proof.KiRun.lean ====
import proofs.«135283_j26594437496900_1_alg».proof.Proof.KiReg0
import proofs.«135283_j26594437496900_1_alg».proof.Proof.KiReg1
import proofs.«135283_j26594437496900_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole run of @main

@main stacks the three weight matrices and rounds the stack to bf16 (a host stretch), then runs the projection
kernel (θ, φ, g = the three column bands of x·Wᵀ) and the attention kernel (out = Σ over key tiles of
((θ·φᵀ)·κ)·g). This module follows every buffer of a core through those three items: what it holds at each of the
four boundaries, that the four arguments are never written, where the intermediate arrays and the result come
from, and that every fair execution terminates with each unscoped buffer at the last boundary's contents. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch: @main is one host stretch and then the two kernels, in that order

The host stretch stacks the three weight matrices by rows into one [1536,1024] matrix and rounds it to bf16.
The projection kernel multiplies every 512-row block of the input by that matrix (transposed) and writes the
three column bands θ, φ, g. The attention kernel reads θ, φ, g tile by tile and writes the output array.

## What every buffer of a core holds at each of the four boundaries between those three items -/

/-- At the start: the memory the program is launched on. -/
abbrev W0 : Dev nD → Valuation τ sig (Elt F) := fun c b => m (c, b)
/-- After the host stretch (the projection kernel's entry): the stacked weights and their bf16 rounding written,
    every other buffer as at the start. -/
abbrev W1 : Dev nD → Valuation τ sig (Elt F) := fun c => StableHlo.after hostOps0 (W0 m c)
/-- The same, read at the TensorCore's references: the contents the projection kernel's proof data are taken at. -/
abbrev V1 : (c : Dev nD) → (b : Ref sig .tc) → Buf (Elt F) ((c : Thread nD τ).loc b) := fun c b => W1 m c b
/-- After the projection kernel (the attention kernel's entry): each of its five arrays at what its 64 grid points'
    write-backs leave — the two inputs never written, the three bands θ, φ, g assembled block by block — and every
    other buffer as the kernel found it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references: the contents the attention kernel's proof data are taken at. -/
abbrev V2 : (c : Dev nD) → (b : Ref sig .tc) → Buf (Elt F) ((c : Thread nD τ).loc b) := fun c b => W2 m c b
/-- The projection kernel's arrays hold at its exit what its write-backs leave, -/
theorem hF0 (c : Dev nD) (w : Fin cfg0.W) : (dat0 (V1 m) c).arrAt w cfg0.N = V2 m c (Pipeline.arrRef spec0 w) :=
  (W2_arr m c w).symm
/-- and a buffer that is none of its arrays holds what it held at entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention kernel (the end of @main): each of its four arrays at what its 128 grid points'
    write-backs leave — θ, φ, g never written, the output assembled from the blocks flushed at the last key tile of
    each query tile — and every other buffer as the kernel found it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m c b
/-- The attention kernel's arrays hold at its exit what its write-backs leave, -/
theorem hF1 (c : Dev nD) (w : Fin cfg1.W) : (dat1 (V2 m) c).arrAt w cfg1.N = V3 m c (Pipeline.arrRef spec1 w) :=
  (W3_arr m c w).symm
/-- and a buffer that is none of its arrays holds what it held at entry. -/
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### Reading a buffer back through the boundaries

The host stretch writes only the stacked weights and their rounding, so any other buffer is still the launch
memory's after it. -/

theorem W1_of (c : Dev nD) (r : Ref sig .tc) (h : r ∉ hostOps0_W) :
    W1 m c (Proc.devRef .tc r) = m ((c : Thread nD τ).loc r) :=
  StableHlo.after_of_writes_sub hostOps0 _ hostOps0_writes h

/-- The four arguments at the projection kernel's entry are the launch memory's. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V1_main_arg2 (c : Dev nD) : V1 m c main_arg2 = m ((c : Thread nD τ).loc main_arg2) := W1_of m c main_arg2 (by decide)
theorem V1_main_arg3 (c : Dev nD) : V1 m c main_arg3 = m ((c : Thread nD τ).loc main_arg3) := W1_of m c main_arg3 (by decide)

/-- The input x ends as launched: the attention kernel has no window on it; the projection kernel only reads it
    (its window 0 is an input, whose array no write-back touches); the host stretch does not write it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
/-- Each weight matrix ends as launched: neither kernel has a window on it (the kernels read the stacked copy), and
    the host stretch only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ### Where the intermediate arrays and the result come from

The attention kernel finds in θ, φ, g what the projection kernel's write-backs left there (windows 2, 3, 4 of the
projection kernel), and the output array ends at what the attention kernel's write-backs leave (its window 3). -/

theorem V2_main_v2_0 (c : Dev nD) : V2 m c main_v2_0 = (dat0 (V1 m) c).arrAt 2 cfg0.N := W2_arr m c 2
theorem V2_main_v2_1 (c : Dev nD) : V2 m c main_v2_1 = (dat0 (V1 m) c).arrAt 3 cfg0.N := W2_arr m c 3
theorem V2_main_v2_2 (c : Dev nD) : V2 m c main_v2_2 = (dat0 (V1 m) c).arrAt 4 cfg0.N := W2_arr m c 4
theorem W3_main_v3 (c : Dev nD) : W3 m c (Proc.devRef .tc main_v3) = (dat1 (V2 m) c).arrAt 3 cfg1.N := W3_arr m c 3

/-! ## The two kernels' proof data, and what a core holds between items -/

/-- Neither kernel has a prefetched table. -/
abbrev adm : (p : Fin 2) → (pcfgs (F := F) p).Adm := fun p => (cfgs p).toPCfg_adm
/-- The projection kernel's proof data at the contents after the host stretch, the attention kernel's at the
    contents the projection kernel leaves. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core waits on another: no pair of cores is assigned a level. -/
abbrev L : GSem nD τ sig → Finset Unit := fun _ => ∅
abbrev lv : GSem nD τ sig → Unit → ℕ := fun _ _ => 0
/-- Beside its buffers a core holds, between items, its generator register at some state and the record that it
    owes nothing. -/
abbrev R (c : Dev nD) : sProp 𝕄 := iprop((∃ r, prngReg c r) ∗ ∃ W, owes (c : Thread nD τ) (0 : CellTallies nD τ sig Unit) W)
/-- The host stretch as a segment: from every unscoped buffer at the contents W to every unscoped buffer at the
    contents after the operations, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that is not scoped is among the unscoped buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, apart from owing nothing: every unscoped buffer at the last boundary's contents
    and the generator register. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- THE PROJECTION KERNEL between W1 and W2. At entry its five arrays are split off the unscoped buffers and the
    generator register goes into the kernel's invariant beside the scoped buffers; at exit the register comes back
    and the arrays, at what the write-backs leave, rejoin the untouched rest as the unscoped buffers at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION KERNEL between W2 and W3. Its proof data carry their own invariant (the accumulator scratch is
    owned at a known value between grid points), so the register and the scoped buffers are first gathered into the
    plain invariant, which gives the data's invariant at the first point; and the data's invariant at the last point
    gives the plain one back, which is taken apart again. The arrays leave and rejoin the unscoped buffers as in the
    projection kernel. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (V2 m) c
    unfold Pipeline.ΦA at h
    iintro HI
    ihave H := h $$ HI
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three segments, and the run -/

/-- @main's three items in order: the host stretch from the launch contents, the projection kernel, the attention kernel. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of those segments: it is the chain of its three items, and the segments' run is the same chain. -/
theorem main_run (c : Dev nD) : main (F := F) c = Pipeline.Seg.run (segs m) := (main_chain c).trans (by chain_rfl)

set_option backward.isDefEq.respectTransparency.types false in
/-- THE RUN. From any memory with every counter at zero, every weakly fair execution of @main on the TensorCores
    terminates without fault, and in every final state each unscoped buffer of each core holds the last boundary's
    contents W3: the launch deals each core its unscoped buffers at W0, its register and owing nothing; the three
    segments chain W0 → W1 → W2 → W3; at the end the held buffers are read against the final memory. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the run, read at the four argument arrays — each is an unscoped buffer, and the last boundary's
    contents at it are the launch memory's. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m c),
     (hr c _ (mem_uc main_arg1 (by decide))).trans (W3_main_arg1 m c),
     (hr c _ (mem_uc main_arg2 (by decide))).trans (W3_main_arg2 m c),
     (hr c _ (mem_uc main_arg3 (by decide))).trans (W3_main_arg3 m c)⟩) (run_all m ρ)

end Cert.KernelIdeal.Hand

end
-- ==== Proof.KiHost.lean ====
import proofs.«135283_j26594437496900_1_alg».proof.Proof.Gen.KernelIdeal.Launch
import proofs.«135283_j26594437496900_1_alg».proof.Proof.Spec
import Idealize.ShloMosaic.Lib.StableHlo.Run
import Idealize.ShloMosaic.Lib.Pipeline.Value
import Idealize.ShloMosaic.Lib.ValueIdx

/-! # The stacked weight

Before the projection region runs, the host lays the three weight matrices `Wθ` ([256, 1024]), `Wφ` ([256, 1024])
and `Wg` ([1024, 1024]) end to end along their rows into one [1536, 1024] array and narrows its entries to the
shorter float format. Over the extended reals the narrowing changes nothing, so the array the region reads is the
stacking itself: row `r` is row `r` of `Wθ` for `r < 256`, row `r − 256` of `Wφ` for `256 ≤ r < 512`, and row
`r − 512` of `Wg` from there on. -/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- What the host stretch leaves in the stacked-weight buffer: the three weight matrices laid end to end along
    their rows — rows 0–255 the first, rows 256–511 the second, rows 512–1535 the third — each entry unchanged
    (narrowing to the shorter float format is the identity on the extended reals). Read at an index `j`: the
    piece whose row span holds `j`'s row, at that row less the rows before the piece, and `j`'s column. -/
theorem wcat_eq (c : Dev nD) :
    (StableHlo.after (hostOps0 (F := Ideal)) (fun b => m (c, b)) (Proc.devRef .tc main_v1) : S1536x1024.Idx → EReal)
      = Cert.Spec.wcat (m ((c : Thread nD τ).loc main_arg1)) (m ((c : Thread nD τ).loc main_arg2)) (m ((c : Thread nD τ).loc main_arg3)) := by
  dsimp only [hostOps0]
  open StableHlo in after_results
  funext j
  rw [truncf_apply]
  have hj0 : (j 0).val < 1536 := (j 0).isLt
  unfold Cert.Spec.wcat
  by_cases h1 : (j 0).val < 256
  · -- a row below 256 lies in the first piece, no rows before it
    rw [dif_pos h1]
    exact concatenate_apply_piece (0 : Fin 2) _ _ j 0 (by show (0 : ℕ) < 3; omega) S256x1024 _ rfl rfl 0 rfl
      (ix2 (⟨(j 0).val, h1⟩ : Fin 256) (⟨(j 1).val, (j 1).isLt⟩ : Fin 1024))
      (fun b hb => match b, hb with | ⟨0, _⟩, hb => absurd rfl hb | ⟨1, _⟩, _ => rfl)
      (Nat.zero_add _)
  · rw [dif_neg h1]
    by_cases h2 : (j 0).val < 512
    · -- a row from 256 to 511 lies in the second piece, 256 rows before it
      rw [dif_pos h2]
      exact concatenate_apply_piece (0 : Fin 2) _ _ j 1 (by show (1 : ℕ) < 3; omega) S256x1024 _ rfl rfl 256 rfl
        (ix2 (⟨(j 0).val - 256, by omega⟩ : Fin 256) (⟨(j 1).val, (j 1).isLt⟩ : Fin 1024))
        (fun b hb => match b, hb with | ⟨0, _⟩, hb => absurd rfl hb | ⟨1, _⟩, _ => rfl)
        (show 256 + ((j 0).val - 256) = (j 0).val by omega)
    · -- a row from 512 on lies in the third piece, 512 rows before it
      rw [dif_neg h2]
      exact concatenate_apply_piece (0 : Fin 2) _ _ j 2 (by show (2 : ℕ) < 3; omega) S1024x1024 _ rfl rfl 512 rfl
        (ix2 (⟨(j 0).val - 512, by omega⟩ : Fin 1024) (⟨(j 1).val, (j 1).isLt⟩ : Fin 1024))
        (fun b hb => match b, hb with | ⟨0, _⟩, hb => absurd rfl hb | ⟨1, _⟩, _ => rfl)
        (show 512 + ((j 0).val - 512) = (j 0).val by omega)

end Cert.KernelIdeal.Hand

end
-- ==== Proof.KiPay0.lean ====
/-
  The projection kernel's three stores, read at one index.

  The kernel forms ONE product y = x · Wᵀ of its activation block x ([1, 512, 1024], viewed [512, 1024]) with the stacked
  weights W ([1536, 1024], transposed to [1024, 1536]), accumulated into zero: y[p, q] = Σ_f x[0, p, f] · W[q, f]. Its three
  stores are the column ranges 0–255, 256–511 and 512–1535 of y, each given back its leading unit axis. Over the extended
  reals a change of float format is the identity, so at an index each store is the sum Σ_f x[0, r, f] · W[off + l, f] with
  off = 0, 256, 512.
-/
import proofs.«135283_j26594437496900_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The product's operand indices, axis by axis

The product contracts axis 1 of the left operand with axis 0 of the right one; the left operand's axis 0 is the result's
row and the right operand's axis 1 is the result's column. -/

/-- The left operand's row is the result's row. -/
theorem proj_lhs_0 (i : S512x1536.Idx) (q : dot_S512x1024_S1024x1536_S512x1536_1_0_0_1_n_n.contr.Idx) :
    (dot_S512x1024_S1024x1536_S512x1536_1_0_0_1_n_n.lhsIdx i q 0).val = (i 0).val := by
  unfold DotDims.lhsIdx
  rw [dif_neg (show ¬(0 : Fin S512x1024.rank) ∈ dot_S512x1024_S1024x1536_S512x1536_1_0_0_1_n_n.lhsBatch by decide), dif_pos (show (0 : Fin S512x1024.rank) ∈ dot_S512x1024_S1024x1536_S512x1536_1_0_0_1_n_n.lhsNonContracting by decide)]
  rfl
/-- The left operand's column is the contraction coordinate. -/
theorem proj_lhs_1 (i : S512x1536.Idx) (q : dot_S512x1024_S1024x1536_S512x1536_1_0_0_1_n_n.contr.Idx) :
    (dot_S512x1024_S1024x1536_S512x1536_1_0_0_1_n_n.lhsIdx i q 1).val = (q ⟨0, by decide⟩).val :=
  dot_S512x1024_S1024x1536_S512x1536_1_0_0_1_n_n.lhsIdx_val_of_single rfl i q
/-- The right operand's row is the contraction coordinate. -/
theorem proj_rhs_0 (i : S512x1536.Idx) (q : dot_S512x1024_S1024x1536_S512x1536_1_0_0_1_n_n.contr.Idx) :
    (dot_S512x1024_S1024x1536_S512x1536_1_0_0_1_n_n.rhsIdx i q 0).val = (q ⟨0, by decide⟩).val :=
  dot_S512x1024_S1024x1536_S512x1536_1_0_0_1_n_n.rhsIdx_val_of_single rfl i q
/-- The right operand's column is the result's column. -/
theorem proj_rhs_1 (i : S512x1536.Idx) (q : dot_S512x1024_S1024x1536_S512x1536_1_0_0_1_n_n.contr.Idx) :
    (dot_S512x1024_S1024x1536_S512x1536_1_0_0_1_n_n.rhsIdx i q 1).val = (i 1).val := by
  unfold DotDims.rhsIdx
  rw [dif_neg (show ¬(1 : Fin S1024x1536.rank) ∈ dot_S512x1024_S1024x1536_S512x1536_1_0_0_1_n_n.rhsBatch by decide), dif_pos (show (1 : Fin S1024x1536.rank) ∈ dot_S512x1024_S1024x1536_S512x1536_1_0_0_1_n_n.rhsNonContracting by decide)]
  rfl

/-! ## The whole product at an index -/

/-- y[p, q] = Σ_f x[0, p, f] · W[q, f]: the block loses its unit axis, the weights are transposed, and the product is
    accumulated into zero. -/
theorem k0_pay1_apply (x : Vec Ideal S1x512x1024 .f32) (w : Vec Ideal S1536x1024 .bf16) (p : Fin 512) (q : Fin 1536) :
    k0_pay1 x w (ix2 p q) = ∑ f : Fin 1024, x (ix3 0 p f) * w (ix2 q f) := by
  unfold k0_pay1
  dsimp only
  rw [truncf_apply]
  simp only [matmul]
  rw [Ideal.matmul_constant_zero_apply, ← Equiv.sum_comp (contrEquiv1 dot_S512x1024_S1024x1536_S512x1536_1_0_0_1_n_n 1024 rfl rfl).symm]
  refine Finset.sum_congr rfl fun f _ => ?_
  have hk := contrEquiv1_symm_val dot_S512x1024_S1024x1536_S512x1536_1_0_0_1_n_n 1024 rfl rfl f
  have el : dot_S512x1024_S1024x1536_S512x1536_1_0_0_1_n_n.lhsIdx (ix2 p q) ((contrEquiv1 dot_S512x1024_S1024x1536_S512x1536_1_0_0_1_n_n 1024 rfl rfl).symm f) = ix2 p f := funext fun a => Fin.ext (by
    match a with
    | ⟨0, _⟩ => exact proj_lhs_0 _ _
    | ⟨1, _⟩ => exact (proj_lhs_1 _ _).trans hk)
  have er : dot_S512x1024_S1024x1536_S512x1536_1_0_0_1_n_n.rhsIdx (ix2 p q) ((contrEquiv1 dot_S512x1024_S1024x1536_S512x1536_1_0_0_1_n_n 1024 rfl rfl).symm f) = ix2 f q := funext fun a => Fin.ext (by
    match a with
    | ⟨0, _⟩ => exact (proj_rhs_0 _ _).trans hk
    | ⟨1, _⟩ => exact proj_rhs_1 _ _)
  rw [el, er, truncf_apply, shapeCast_self]
  -- the left factor: the block without its unit axis; the right factor: the weights with rows and columns exchanged
  have hl : shapeCast S512x1024 x shapeCasts_S1x512x1024_S512x1024 (ix2 p f) = x (ix3 0 p f) :=
    (shapeCast_dropUnit_apply ![512, 1024] x _ (ix2 p f)).trans (congrArg x (funext fun a => by
      match a with
      | ⟨0, _⟩ => rfl
      | ⟨1, _⟩ => rfl
      | ⟨2, _⟩ => rfl))
  have hr : transpose S1024x1536 [1, 0] w transposes_S1536x1024_p1_0_S1024x1536 (ix2 f q) = w (ix2 q f) :=
    transpose_apply [1, 0] w _ (ix2 f q) (ix2 q f) (fun b => by
      match b with
      | ⟨0, _⟩ => rfl
      | ⟨1, _⟩ => rfl)
  rw [hl, hr]

/-! ## The three stores at an index

Each store is a range of y's columns given back the block's leading unit axis: index (0, r, l) of the store is y at row
r and column off + l. -/

/-- A band of `n` columns of a [512, 1536] array starting at column `c`, with a leading unit axis added, read at
    (0, r, l): the array at row r and column c + l. -/
theorem band_apply {α : Type} (n c : Nat) (hcn : c + n ≤ 1536) (y : S512x1536.Idx → α)
    (h : S512x1536.Slices ![0, c] (⟨2, ![512, n]⟩ : Shape))
    (h' : (⟨2, ![512, n]⟩ : Shape).ShapeCasts (⟨3, ![1, 512, n]⟩ : Shape)) (r : Fin 512) (l : Fin n) :
    shapeCast (⟨3, ![1, 512, n]⟩ : Shape) (extractStridedSlice (s := S512x1536) (⟨2, ![512, n]⟩ : Shape) ![0, c] y h) h' (ix3 0 r l)
      = y (ix2 r (⟨c + l.val, by omega⟩ : Fin 1536)) := by
  refine (shapeCast_addUnit_apply ![512, n] _ h' (ix3 0 r l)).trans ?_
  exact extractStridedSlice_apply (s := S512x1536) (t := (⟨2, ![512, n]⟩ : Shape)) ![0, c] y h _
    (ix2 r (⟨c + l.val, by omega⟩ : Fin 1536)) (fun a => by
      match a with
      | ⟨0, _⟩ => show r.val = 0 + r.val; omega
      | ⟨1, _⟩ => rfl)

/-- Columns 0–255: the store into the first output window. -/
theorem k0_pay2_apply (x : Vec Ideal S1x512x1024 .f32) (w : Vec Ideal S1536x1024 .bf16) (r : Fin 512) (l : Fin 256) :
    k0_pay2 x w (ix3 0 r l) = ∑ f : Fin 1024, x (ix3 0 r f) * w (ix2 (⟨l.val, by omega⟩ : Fin 1536) f) := by
  unfold k0_pay2
  refine ((band_apply 256 0 (by omega) (k0_pay1 x w) _ _ r l).trans (k0_pay1_apply x w r _)).trans ?_
  exact Finset.sum_congr rfl fun f _ => congrArg (fun q : Fin 1536 => x (ix3 0 r f) * w (ix2 q f)) (Fin.ext (Nat.zero_add _))

/-- Columns 256–511: the store into the second output window. -/
theorem k0_pay3_apply (x : Vec Ideal S1x512x1024 .f32) (w : Vec Ideal S1536x1024 .bf16) (r : Fin 512) (l : Fin 256) :
    k0_pay3 x w (ix3 0 r l) = ∑ f : Fin 1024, x (ix3 0 r f) * w (ix2 (⟨256 + l.val, by omega⟩ : Fin 1536) f) := by
  unfold k0_pay3
  exact (band_apply 256 256 (by omega) (k0_pay1 x w) _ _ r l).trans (k0_pay1_apply x w r _)

/-- Columns 512–1535: the store into the third output window. -/
theorem k0_pay4_apply (x : Vec Ideal S1x512x1024 .f32) (w : Vec Ideal S1536x1024 .bf16) (r : Fin 512) (o : Fin 1024) :
    k0_pay4 x w (ix3 0 r o) = ∑ f : Fin 1024, x (ix3 0 r f) * w (ix2 (⟨512 + o.val, by omega⟩ : Fin 1536) f) := by
  unfold k0_pay4
  exact (band_apply 1024 512 (by omega) (k0_pay1 x w) _ _ r o).trans (k0_pay1_apply x w r _)

end Cert.KernelIdeal.Hand

end
-- ==== Proof.KiVal0.lean ====
/-
  From blocks to arrays: what the projection region leaves in its three output arrays.

  The region's grid is [8, 8]: point t = 8·b + i handles batch b and the 512 rows 512·i … 512·i + 511. At that point the
  activation window holds x[b, 512·i + r, f] at (0, r, f), the weight window holds the whole stacked weights W, and each
  output window's block (0, r, l) is written back to its array at (b, 512·i + r, l). The kernel's three stores at an
  index are Σ_f x[0, r, f] · W[off + l, f]; so each output array ends holding, at (b, n, l), Σ_f x[b, n, f] · W[off + l, f],
  because every (b, n) lies in exactly the block of the point 8·b + n / 512.
-/
import proofs.«135283_j26594437496900_1_alg».proof.Proof.KiReg0
import proofs.«135283_j26594437496900_1_alg».proof.Proof.KiPay0
import proofs.«135283_j26594437496900_1_alg».proof.Proof.Spec
import Idealize.ShloMosaic.Lib.Pipeline.Value

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Value0
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## Where each window's block sits, at every point of the grid -/

/-- The five windows' block indices at point t, decided over the 64 points: the four row-tile windows are at
    (t / 8, t % 8, 0), the weight window always at (0, 0). -/
theorem blockIdx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- A point of the grid is below 64. -/
theorem lt64 (t : Fin cfg0.N) : t.val < 64 := Nat.lt_of_lt_of_eq t.isLt N_0

/-- The activation block at point t, read at (0, r, f): the activations at batch t / 8, row 512·(t % 8) + r. -/
theorem xblk_apply (c : Dev nD) (t : Fin cfg0.N) (r : Fin 512) (f : Fin 1024) :
    (iblk0 V c 0 t : Vec Ideal S1x512x1024 .f32) (ix3 0 r f)
      = (V c main_arg0 : S8x4096x1024.Idx → EReal) (ix3 (⟨t.val / 8, by have := lt64 t; omega⟩ : Fin 8)
          (⟨t.val % 8 * 512 + r.val, by omega⟩ : Fin 4096) f) := by
  obtain ⟨e0, e1, e2, -⟩ := blockIdx0 t
  unfold iblk0
  rw [View.read_apply]
  show (V c main_arg0 : S8x4096x1024.Idx → EReal) (((cfg0.win 0).blk t).view.emb (ix3 0 r f)) = _
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * f.val = f.val; omega

/-- The weight block at any point is the whole stacked weight array. -/
theorem wblk_apply (c : Dev nD) (t : Fin cfg0.N) (q : Fin 1536) (f : Fin 1024) :
    (iblk0 V c 1 t : Vec Ideal S1536x1024 .bf16) (ix2 q f) = (V c main_v1 : S1536x1024.Idx → EReal) (ix2 q f) := by
  obtain ⟨-, -, -, e0, e1, -⟩ := blockIdx0 t
  unfold iblk0
  rw [View.read_apply]
  show (V c main_v1 : S1536x1024.Idx → EReal) (((cfg0.win 1).blk t).view.emb (ix2 q f)) = _
  congr 1
  funext a
  apply Fin.ext
  match a with
  | ⟨0, _⟩ => show win0_1.index t (0 : Fin 2) * 1536 + 1 * q.val = q.val; omega
  | ⟨1, _⟩ => show win0_1.index t (1 : Fin 2) * 1024 + 1 * f.val = f.val; omega

/-! ## A store's sum over the point's blocks is the projection at the array index

The one step the three output windows share. Let X be a block that holds x[t / 8, 512·(t % 8) + r, f] at (0, r, f) and W
one that holds the stacked weights. Then Σ_f X[0, r, f] · W[off + l, f] is the projection Σ_f x[b, n, f] · W[off + l', f]
at any array index (b, n, l') with b = t / 8, n = 512·(t % 8) + r, l' = l. -/

theorem proj_block_apply (c : Dev nD) (t : Fin cfg0.N) (n off : Nat) (h : off + n ≤ 1536)
    (X : S1x512x1024.Idx → EReal) (W : S1536x1024.Idx → EReal)
    (hX : ∀ (r : Fin 512) (f : Fin 1024), X (ix3 0 r f)
      = (V c main_arg0 : S8x4096x1024.Idx → EReal) (ix3 (⟨t.val / 8, by have := lt64 t; omega⟩ : Fin 8)
          (⟨t.val % 8 * 512 + r.val, by omega⟩ : Fin 4096) f))
    (hW : ∀ (q : Fin 1536) (f : Fin 1024), W (ix2 q f) = (V c main_v1 : S1536x1024.Idx → EReal) (ix2 q f))
    (i : (⟨3, ![8, 4096, n]⟩ : Shape).Idx) (r : Fin 512) (l : Fin n)
    (hi0 : (i 0).val = t.val / 8) (hi1 : (i 1).val = t.val % 8 * 512 + r.val) (hi2 : (i 2).val = l.val) :
    ∑ f : Fin 1024, X (ix3 0 r f) * W (ix2 (⟨off + l.val, by omega⟩ : Fin 1536) f)
      = Cert.Spec.projAt n off h (V c main_arg0) (V c main_v1) i := by
  unfold Cert.Spec.projAt
  refine Finset.sum_congr rfl fun f _ => ?_
  rw [hX, hW]
  refine congrArg₂ (· * ·) (congrArg (V c main_arg0 : S8x4096x1024.Idx → EReal) ?_)
    (congrArg (V c main_v1 : S1536x1024.Idx → EReal) ?_)
  · funext a
    apply Fin.ext
    match a with
    | ⟨0, _⟩ => exact hi0.symm
    | ⟨1, _⟩ => exact hi1.symm
    | ⟨2, _⟩ => rfl
  · funext a
    apply Fin.ext
    match a with
    | ⟨0, _⟩ => show off + l.val = off + (i 2).val; rw [hi2]
    | ⟨1, _⟩ => rfl

/-- The point whose block holds row n of batch b is 8·b + n / 512. -/
theorem pointOf (b n : Nat) (hb : b < 8) (hn : n < 4096) : ∃ t : Fin cfg0.N, t.val = b * 8 + n / 512 :=
  ⟨⟨b * 8 + n / 512, by rw [show cfg0.N = 64 from N_0]; omega⟩, rfl⟩

/-! ## The first output window: rows 0–255 of the stacked weights -/

/-- Point t writes back its block of x against rows 0–255 of the stacked weights. -/
theorem flushed2_eq (c : Dev nD) (t : Fin cfg0.N) :
    (dat0 (F := Ideal) V c).flushed 2 t
      = ((cfg0.win 2).blk t).view.read (Elt Ideal) (Cert.Spec.projAt 256 0 (by omega) (V c main_arg0) (V c main_v1)) := by
  show (cfg0.win 2).cut (grid0.coords t) ((dat0 V c).after 2 t) = _
  rw [after0_2]
  unfold out0_2
  rw [View.canon_unit_zero zeros3]
  simp only [View.ld_unit_zero (S := S1x512x1024) zeros3, View.ld_unit_zero (S := S1536x1024) zeros2]
  obtain ⟨-, -, -, -, -, e0, e1, e2, -⟩ := blockIdx0 t
  funext j
  obtain ⟨z, r, l, rfl⟩ : ∃ (z : Fin 1) (r : Fin 512) (l : Fin 256), (j : S1x512x256.Idx) = ix3 z r l :=
    ⟨j 0, j 1, j 2, eq_ix3 j⟩
  obtain rfl : z = 0 := Subsingleton.elim _ _
  show k0_pay2 (iblk0 V c 0 t) (iblk0 V c 1 t) (ix3 0 r l)
    = Cert.Spec.projAt 256 0 (by omega) (V c main_arg0) (V c main_v1) (((cfg0.win 2).blk t).view.emb (ix3 0 r l))
  rw [k0_pay2_apply]
  -- row l of the weights is row 0 + l
  rw [show (⟨l.val, by omega⟩ : Fin 1536) = ⟨0 + l.val, by omega⟩ from Fin.ext (Nat.zero_add l.val).symm]
  refine proj_block_apply V c t 256 0 (by omega) (iblk0 V c 0 t) (iblk0 V c 1 t) (xblk_apply V c t) (wblk_apply V c t) _ r l ?_ ?_ ?_
  · show win0_2.index t (0 : Fin 3) * 1 + 1 * 0 = t.val / 8; omega
  · show win0_2.index t (1 : Fin 3) * 512 + 1 * r.val = t.val % 8 * 512 + r.val; omega
  · show win0_2.index t (2 : Fin 3) * 256 + 1 * l.val = l.val; omega

/-- An index of the first output array is in point t's block iff each coordinate is in the block's range. -/
theorem mem_blk2 (t : Fin cfg0.N) (i : S8x4096x256.Idx) :
    i ∈ ((cfg0.win 2).blk t).view.set ↔ ∀ a : Fin 3, win0_2.index t a * S1x512x256.size a ≤ (i a).val
      ∧ (i a).val < win0_2.index t a * S1x512x256.size a + S1x512x256.size a := by
  show i ∈ ((View.whole main_v2_0).slice (win0_2.rect t)).set ↔ _
  rw [View.set_slice_whole, Rect.mem_set_unit]
  exact Iff.rfl

/-- Every (b, n, l) of the first output array is in the block of a point that writes back. -/
theorem cover2 (i : S8x4096x256.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 256 := (i 2).isLt
  obtain ⟨t, ht⟩ := pointOf (i 0).val (i 1).val h0 h1
  obtain ⟨-, -, -, -, -, e0, e1, e2, -⟩ := blockIdx0 t
  refine ⟨t, flush0_2 t, (mem_blk2 t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- The first output array after the region: x against rows 0–255 of the stacked weights. -/
theorem theta_final (c : Dev nD) :
    (dat0 (F := Ideal) V c).arrAt 2 cfg0.N = Cert.Spec.projAt 256 0 (by omega) (V c main_arg0) (V c main_v1) :=
  (dat0 (F := Ideal) V c).arrAt_eq_of_cover 2 _ (fun t _ => flushed2_eq V c t) cover2

/-! ## The second output window: rows 256–511 of the stacked weights -/

/-- Point t writes back its block of x against rows 256–511 of the stacked weights. -/
theorem flushed3_eq (c : Dev nD) (t : Fin cfg0.N) :
    (dat0 (F := Ideal) V c).flushed 3 t
      = ((cfg0.win 3).blk t).view.read (Elt Ideal) (Cert.Spec.projAt 256 256 (by omega) (V c main_arg0) (V c main_v1)) := by
  show (cfg0.win 3).cut (grid0.coords t) ((dat0 V c).after 3 t) = _
  rw [after0_3]
  unfold out0_3
  rw [View.canon_unit_zero zeros3]
  simp only [View.ld_unit_zero (S := S1x512x1024) zeros3, View.ld_unit_zero (S := S1536x1024) zeros2]
  obtain ⟨-, -, -, -, -, -, -, -, e0, e1, e2, -⟩ := blockIdx0 t
  funext j
  obtain ⟨z, r, l, rfl⟩ : ∃ (z : Fin 1) (r : Fin 512) (l : Fin 256), (j : S1x512x256.Idx) = ix3 z r l :=
    ⟨j 0, j 1, j 2, eq_ix3 j⟩
  obtain rfl : z = 0 := Subsingleton.elim _ _
  show k0_pay3 (iblk0 V c 0 t) (iblk0 V c 1 t) (ix3 0 r l)
    = Cert.Spec.projAt 256 256 (by omega) (V c main_arg0) (V c main_v1) (((cfg0.win 3).blk t).view.emb (ix3 0 r l))
  rw [k0_pay3_apply]
  refine proj_block_apply V c t 256 256 (by omega) (iblk0 V c 0 t) (iblk0 V c 1 t) (xblk_apply V c t) (wblk_apply V c t) _ r l ?_ ?_ ?_
  · show win0_3.index t (0 : Fin 3) * 1 + 1 * 0 = t.val / 8; omega
  · show win0_3.index t (1 : Fin 3) * 512 + 1 * r.val = t.val % 8 * 512 + r.val; omega
  · show win0_3.index t (2 : Fin 3) * 256 + 1 * l.val = l.val; omega

/-- An index of the second output array is in point t's block iff each coordinate is in the block's range. -/
theorem mem_blk3 (t : Fin cfg0.N) (i : S8x4096x256.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v2_1).slice (win0_3.rect t)).set ↔ _
  rw [View.set_slice_whole, Rect.mem_set_unit]
  exact Iff.rfl

/-- Every (b, n, l) of the second output array is in the block of a point that writes back. -/
theorem cover3 (i : S8x4096x256.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 256 := (i 2).isLt
  obtain ⟨t, ht⟩ := pointOf (i 0).val (i 1).val h0 h1
  obtain ⟨-, -, -, -, -, -, -, -, e0, e1, e2, -⟩ := blockIdx0 t
  refine ⟨t, flush0_3 t, (mem_blk3 t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The second output array after the region: x against rows 256–511 of the stacked weights. -/
theorem phi_final (c : Dev nD) :
    (dat0 (F := Ideal) V c).arrAt 3 cfg0.N = Cert.Spec.projAt 256 256 (by omega) (V c main_arg0) (V c main_v1) :=
  (dat0 (F := Ideal) V c).arrAt_eq_of_cover 3 _ (fun t _ => flushed3_eq V c t) cover3

/-! ## The third output window: rows 512–1535 of the stacked weights -/

/-- Point t writes back its block of x against rows 512–1535 of the stacked weights. -/
theorem flushed4_eq (c : Dev nD) (t : Fin cfg0.N) :
    (dat0 (F := Ideal) V c).flushed 4 t
      = ((cfg0.win 4).blk t).view.read (Elt Ideal) (Cert.Spec.projAt 1024 512 (by omega) (V c main_arg0) (V c main_v1)) := by
  show (cfg0.win 4).cut (grid0.coords t) ((dat0 V c).after 4 t) = _
  rw [after0_4]
  unfold out0_4
  rw [View.canon_unit_zero zeros3]
  simp only [View.ld_unit_zero (S := S1x512x1024) zeros3, View.ld_unit_zero (S := S1536x1024) zeros2]
  obtain ⟨-, -, -, -, -, -, -, -, -, -, -, e0, e1, e2⟩ := blockIdx0 t
  funext j
  obtain ⟨z, r, o, rfl⟩ : ∃ (z : Fin 1) (r : Fin 512) (o : Fin 1024), (j : S1x512x1024.Idx) = ix3 z r o :=
    ⟨j 0, j 1, j 2, eq_ix3 j⟩
  obtain rfl : z = 0 := Subsingleton.elim _ _
  show k0_pay4 (iblk0 V c 0 t) (iblk0 V c 1 t) (ix3 0 r o)
    = Cert.Spec.projAt 1024 512 (by omega) (V c main_arg0) (V c main_v1) (((cfg0.win 4).blk t).view.emb (ix3 0 r o))
  rw [k0_pay4_apply]
  refine proj_block_apply V c t 1024 512 (by omega) (iblk0 V c 0 t) (iblk0 V c 1 t) (xblk_apply V c t) (wblk_apply V c t) _ r o ?_ ?_ ?_
  · show win0_4.index t (0 : Fin 3) * 1 + 1 * 0 = t.val / 8; omega
  · show win0_4.index t (1 : Fin 3) * 512 + 1 * r.val = t.val % 8 * 512 + r.val; omega
  · show win0_4.index t (2 : Fin 3) * 1024 + 1 * o.val = o.val; omega

/-- An index of the third output array is in point t's block iff each coordinate is in the block's range. -/
theorem mem_blk4 (t : Fin cfg0.N) (i : S8x4096x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v2_2).slice (win0_4.rect t)).set ↔ _
  rw [View.set_slice_whole, Rect.mem_set_unit]
  exact Iff.rfl

/-- Every (b, n, o) of the third output array is in the block of a point that writes back. -/
theorem cover4 (i : S8x4096x1024.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  obtain ⟨t, ht⟩ := pointOf (i 0).val (i 1).val h0 h1
  obtain ⟨-, -, -, -, -, -, -, -, -, -, -, e0, e1, e2⟩ := blockIdx0 t
  refine ⟨t, flush0_4 t, (mem_blk4 t i).mpr fun a => ?_⟩
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The third output array after the region: x against rows 512–1535 of the stacked weights. -/
theorem g_final (c : Dev nD) :
    (dat0 (F := Ideal) V c).arrAt 4 cfg0.N = Cert.Spec.projAt 1024 512 (by omega) (V c main_arg0) (V c main_v1) :=
  (dat0 (F := Ideal) V c).arrAt_eq_of_cover 4 _ (fun t _ => flushed4_eq V c t) cover4

end Value0

end Cert.KernelIdeal.Hand

end
-- ==== Proof.KiPay1.lean ====
/-
  The three values the second region's body stores, each read at one element, over the extended reals.
  With θ, φ of shape [1, 1024, 256], g of shape [1, 1024, 1024] and the carried accumulator s of shape [1024, 1024]:
    the reset value is 0 everywhere;
    the accumulated value at (r, o) is s[r, o] + Σ_q ((Σ_l θ[0, r, l]·φ[0, q, l])·κ)·g[0, q, o], κ the word 0x3D000000;
    the stored block at (0, r, o) is the accumulator at (r, o).
  Dropping or adding the leading unit axis, transposing φ and changing the format move an element without changing it;
  each of the two matrix products starts from the zero accumulator, so it is the plain sum over its contracted axis.
-/
import proofs.«135283_j26594437496900_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.SL.Sem

/-! ## The product θ·φᵀ: rows of θ against rows of φ, contracted over the 256 features -/

/-- The left operand's row is the result's row. -/
theorem lhs_scores_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- The left operand's column is the contracted feature. -/
theorem lhs_scores_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's row is the contracted feature. -/
theorem rhs_scores_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand's column is the result's column. -/
theorem rhs_scores_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A [1024, 256] by [256, 1024] product into the zero accumulator, at (r, q): Σ_l A[r, l]·B[l, q]. -/
theorem scores_apply (A : FVec Ideal S1024x256 .bf16) (B : FVec Ideal S256x1024 .bf16) (r q : Fin 1024) :
    FloatOps.matmul dot_S1024x256_S256x1024_S1024x1024_1_0_0_1_n_n none A B (constant S1024x1024 .f32 0x00000000#32) (ix2 r q)
      = ∑ l : Fin 256, A (ix2 r l) * B (ix2 l q) := by
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r q) ((contrEquiv1 dot_S1024x256_S256x1024_S1024x1024_1_0_0_1_n_n 256 rfl rfl).symm k) = ix2 r k := funext fun a => Fin.ext (by
    match a with
    | ⟨0, _⟩ => exact lhs_scores_0 _ _
    | ⟨1, _⟩ => exact (lhs_scores_1 _ _).trans hk)
  have er : dot_S1024x256_S256x1024_S1024x1024_1_0_0_1_n_n.rhsIdx (ix2 r q) ((contrEquiv1 dot_S1024x256_S256x1024_S1024x1024_1_0_0_1_n_n 256 rfl rfl).symm k) = ix2 k q := funext fun a => Fin.ext (by
    match a with
    | ⟨0, _⟩ => exact (rhs_scores_0 _ _).trans hk
    | ⟨1, _⟩ => exact rhs_scores_1 _ _)
  rw [el, er]

/-! ## The product with g: a row of scaled scores against a column of g, contracted over the 1024 rows of the tile -/

/-- The left operand's row is the result's row. -/
theorem lhs_mix_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contracted row of the tile. -/
theorem lhs_mix_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contracted row of the tile. -/
theorem rhs_mix_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the result's column. -/
theorem rhs_mix_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024, 1024] by [1024, 1024] product into the zero accumulator, at (r, o): Σ_q P[r, q]·G[q, o]. -/
theorem mix_apply (P : FVec Ideal S1024x1024 .bf16) (G : FVec Ideal S1024x1024 .bf16) (r o : Fin 1024) :
    FloatOps.matmul dot_S1024x1024_S1024x1024_S1024x1024_1_0_0_1_n_n none P G (constant S1024x1024 .f32 0x00000000#32) (ix2 r o)
      = ∑ q : Fin 1024, P (ix2 r q) * G (ix2 q o) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r o) ((contrEquiv1 dot_S1024x1024_S1024x1024_S1024x1024_1_0_0_1_n_n 1024 rfl rfl).symm k) = ix2 r k := funext fun a => Fin.ext (by
    match a with
    | ⟨0, _⟩ => exact lhs_mix_0 _ _
    | ⟨1, _⟩ => exact (lhs_mix_1 _ _).trans hk)
  have er : dot_S1024x1024_S1024x1024_S1024x1024_1_0_0_1_n_n.rhsIdx (ix2 r o) ((contrEquiv1 dot_S1024x1024_S1024x1024_S1024x1024_1_0_0_1_n_n 1024 rfl rfl).symm k) = ix2 k o := funext fun a => Fin.ext (by
    match a with
    | ⟨0, _⟩ => exact (rhs_mix_0 _ _).trans hk
    | ⟨1, _⟩ => exact rhs_mix_1 _ _)
  rw [el, er]

/-! ## The three stored values at an element -/

/-- The reset value: the zero word everywhere. -/
theorem k1_pay1_apply (r o : Fin 1024) : k1_pay1 (F := Ideal) (ix2 r o) = 0 := by
  unfold k1_pay1
  rw [shapeCast_self]
  exact Ideal.ofBits_zero_f32

/-- The accumulated value: the carried accumulator plus this tile's term. -/
theorem k1_pay2_apply (x0 x1 : Vec Ideal S1x1024x256 .bf16) (x2 : Vec Ideal S1x1024x1024 .bf16) (s : Vec Ideal S1024x1024 .f32)
    (r o : Fin 1024) :
    k1_pay2 x0 x1 x2 s (ix2 r o)
      = s (ix2 r o) + ∑ q : Fin 1024, ((∑ l : Fin 256, x0 (ix3 0 r l) * x1 (ix3 0 q l)) * Ideal.ofBits .f32 0x3D000000#32) * x2 (ix3 0 q o) := by
  unfold k1_pay2
  rw [shapeCast_self]
  simp only [matmul]
  rw [addf_apply, mix_apply]
  refine congrArg (s (ix2 r o) + ·) (Finset.sum_congr rfl fun q _ => ?_)
  rw [truncf_apply, mulf_apply, scores_apply, broadcast_apply, shapeCast_1ab_ab_apply]
  refine congrArg₂ (· * ·) (congrArg (· * _) (Finset.sum_congr rfl fun l _ => ?_)) rfl
  rw [shapeCast_1ab_ab_apply, transpose_ix2_apply, shapeCast_1ab_ab_apply]

/-- The stored block: the accumulator with a leading unit axis. -/
theorem k1_pay3_apply (s : Vec Ideal S1024x1024 .f32) (r o : Fin 1024) : k1_pay3 s (ix3 0 r o) = s (ix2 r o) := by
  unfold k1_pay3
  exact shapeCast_ab_1ab_apply s _ 0 r o

end Cert.KernelIdeal.Hand

end
-- ==== Proof.KiVal1.lean ====
/-
  What the second region leaves in its result array, over the extended reals.
  The grid point t = (b·4 + i)·4 + k works on batch b, the i-th block of 1024 result rows and the k-th tile of 1024
  rows of φ and g. Over a run k = 0, 1, 2, 3 the carried accumulator is reset and then receives, tile by tile,
    Σ_q ((Σ_l θ[b, i·1024 + r, l]·φ[b, k·1024 + q, l])·κ)·g[b, k·1024 + q, o],
  so after the fourth point it holds the sum of the four tiles' terms (0 + a = a; the sums nest to the left exactly as
  a sum over four indices does). Only the fourth point of a run writes its block back, the blocks of the runs tile the
  array, and therefore the array ends holding the tile-by-tile sum at every index.
-/
import proofs.«135283_j26594437496900_1_alg».proof.Proof.KiReg1
import proofs.«135283_j26594437496900_1_alg».proof.Proof.KiPay1
import proofs.«135283_j26594437496900_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat)

variable (V : (c : Dev nD) → (b : Ref sig .tc) → Buf (Elt Ideal) ((c : Thread nD τ).loc b))

/-- The second region's grid has 8·4·4 = 128 points. -/
theorem N1 : cfg1.N = 128 := N_1

/-- Where each window's block sits at point t = (b·4 + i)·4 + k: θ's and the result's at (b, i, 0), φ's and g's at (b, k, 0). -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- θ's block at point t, at (0, r, l), is θ at (t/16, (t/4 % 4)·1024 + r, l). -/
theorem theta_blk (c : Dev nD) (t : Fin cfg1.N) (b : Fin 8) (n : Fin 4096) (r : Fin 1024) (l : Fin 256)
    (hb : b.val = t.val / 16) (hn : n.val = t.val / 4 % 4 * 1024 + r.val) :
    iblk1 V c 0 t (ix3 0 r l) = V c main_v2_0 (ix3 b n l) := by
  unfold iblk1
  rw [View.read_apply]
  obtain ⟨e0, e1, e2, -⟩ := idx_facts1 t
  refine congrArg (V c main_v2_0) (funext fun a => Fin.ext ?_)
  match a with
  | ⟨0, _⟩ => show win1_0.index t (0 : Fin 3) * 1 + 1 * 0 = b.val; rw [e0]; omega
  | ⟨1, _⟩ => show win1_0.index t (1 : Fin 3) * 1024 + 1 * r.val = n.val; rw [e1]; omega
  | ⟨2, _⟩ => show win1_0.index t (2 : Fin 3) * 256 + 1 * l.val = l.val; rw [e2]; omega

/-- φ's block at point t, at (0, q, l), is φ at (t/16, (t % 4)·1024 + q, l). -/
theorem phi_blk (c : Dev nD) (t : Fin cfg1.N) (b : Fin 8) (k : Fin 4) (q : Fin 1024) (l : Fin 256)
    (hb : b.val = t.val / 16) (hk : k.val = t.val % 4) :
    iblk1 V c 1 t (ix3 0 q l) = V c main_v2_1 (ix3 b (Spec.tileRow k q) l) := by
  unfold iblk1
  rw [View.read_apply]
  obtain ⟨-, -, -, e0, e1, e2, -⟩ := idx_facts1 t
  refine congrArg (V c main_v2_1) (funext fun a => Fin.ext ?_)
  match a with
  | ⟨0, _⟩ => show win1_1.index t (0 : Fin 3) * 1 + 1 * 0 = b.val; rw [e0]; omega
  | ⟨1, _⟩ => show win1_1.index t (1 : Fin 3) * 1024 + 1 * q.val = k.val * 1024 + q.val; rw [e1]; omega
  | ⟨2, _⟩ => show win1_1.index t (2 : Fin 3) * 256 + 1 * l.val = l.val; rw [e2]; omega

/-- g's block at point t, at (0, q, o), is g at (t/16, (t % 4)·1024 + q, o). -/
theorem g_blk (c : Dev nD) (t : Fin cfg1.N) (b : Fin 8) (k : Fin 4) (q o : Fin 1024)
    (hb : b.val = t.val / 16) (hk : k.val = t.val % 4) :
    iblk1 V c 2 t (ix3 0 q o) = V c main_v2_2 (ix3 b (Spec.tileRow k q) o) := by
  unfold iblk1
  rw [View.read_apply]
  obtain ⟨-, -, -, -, -, -, e0, e1, e2, -⟩ := idx_facts1 t
  refine congrArg (V c main_v2_2) (funext fun a => Fin.ext ?_)
  match a with
  | ⟨0, _⟩ => show win1_2.index t (0 : Fin 3) * 1 + 1 * 0 = b.val; rw [e0]; omega
  | ⟨1, _⟩ => show win1_2.index t (1 : Fin 3) * 1024 + 1 * q.val = k.val * 1024 + q.val; rw [e1]; omega
  | ⟨2, _⟩ => show win1_2.index t (2 : Fin 3) * 1024 + 1 * o.val = o.val; rw [e2]; omega

/-- Tile k's term of the result at (b, n, o): Σ_q ((Σ_l θ[b,n,l]·φ[b,k·1024+q,l])·κ)·g[b,k·1024+q,o]. -/
def tileTerm (θ φ : Spec.SL.Idx → EReal) (g : Spec.SX.Idx → EReal) (κ : EReal) (b : Fin 8) (n : Fin 4096) (o : Fin 1024) (k : Fin 4) : EReal :=
  ∑ q : Fin 1024, ((∑ l : Fin 256, θ (ix3 b n l) * φ (ix3 b (Spec.tileRow k q) l)) * κ) * g (ix3 b (Spec.tileRow k q) o)

/-- The tile-by-tile result at an index is the sum of the four tiles' terms there. -/
theorem attendT_eq_tiles (θ φ : Spec.SL.Idx → EReal) (g : Spec.SX.Idx → EReal) (κ : EReal) (j : Spec.SX.Idx) :
    Spec.attendT θ φ g κ j = ∑ k : Fin 4, tileTerm θ φ g κ ⟨(j 0).val, (j 0).isLt⟩ ⟨(j 1).val, (j 1).isLt⟩ ⟨(j 2).val, (j 2).isLt⟩ k := rfl

/-- What one step adds at (r, o) at point t: tile (t % 4)'s term for batch t/16 and row (t/4 % 4)·1024 + r. -/
theorem step_apply (c : Dev nD) (t : Fin cfg1.N) (s : Vec Ideal S1024x1024 .f32) (b : Fin 8) (n : Fin 4096) (k : Fin 4) (r o : Fin 1024)
    (hb : b.val = t.val / 16) (hn : n.val = t.val / 4 % 4 * 1024 + r.val) (hk : k.val = t.val % 4) :
    k1_pay2 (iblk1 V c 0 t) (iblk1 V c 1 t) (iblk1 V c 2 t) s (ix2 r o)
      = s (ix2 r o) + tileTerm (V c main_v2_0) (V c main_v2_1) (V c main_v2_2) (Ideal.ofBits .f32 0x3D000000#32) b n o k := by
  rw [k1_pay2_apply]
  unfold tileTerm
  refine congrArg (s (ix2 r o) + ·) (Finset.sum_congr rfl fun q _ => ?_)
  rw [g_blk V c t b k q o hb hk]
  refine congrArg (· * _) (congrArg (· * _) (Finset.sum_congr rfl fun l _ => ?_))
  rw [theta_blk V c t b n r l hb hn, phi_blk V c t b k q l hb hk]

/-- At the first point of a run the accumulator is reset and receives the first tile's term. -/
theorem scratch_first (c : Dev nD) (m : ℕ) (h : m < cfg1.N) (hm : m % 4 = 0) (b : Fin 8) (n : Fin 4096) (k : Fin 4) (r o : Fin 1024)
    (hb : b.val = m / 16) (hn : n.val = m / 4 % 4 * 1024 + r.val) (hk : k.val = m % 4) :
    (outsAt1 V c m h).2 (ix2 r o) = tileTerm (V c main_v2_0) (V c main_v2_1) (V c main_v2_2) (Ideal.ofBits .f32 0x3D000000#32) b n o k := by
  have e := sc_A V c ⟨m, h⟩ hm
  rw [show (outsAt1 V c m h).2 = _ from e, step_apply V c ⟨m, h⟩ _ b n k r o hb hn hk, k1_pay1_apply, zero_add]

/-- At every later point of a run the accumulator receives that point's tile's term on top of what the point before left. -/
theorem scratch_step (c : Dev nD) (m : ℕ) (h : m + 1 < cfg1.N) (hm : ¬(m + 1) % 4 = 0) (b : Fin 8) (n : Fin 4096) (k : Fin 4) (r o : Fin 1024)
    (hb : b.val = (m + 1) / 16) (hn : n.val = (m + 1) / 4 % 4 * 1024 + r.val) (hk : k.val = (m + 1) % 4) :
    (outsAt1 V c (m + 1) h).2 (ix2 r o)
      = (outsAt1 V c m (Nat.lt_of_succ_lt h)).2 (ix2 r o) + tileTerm (V c main_v2_0) (V c main_v2_1) (V c main_v2_2) (Ideal.ofBits .f32 0x3D000000#32) b n o k := by
  have e := sc_BC V c ⟨m + 1, h⟩ hm
  rw [show (outsAt1 V c (m + 1) h).2 = _ from e]
  exact step_apply V c ⟨m + 1, h⟩ _ b n k r o hb hn hk

/-- After the fourth point of a run the accumulator holds, at (r, o), the tile-by-tile result at the array index under it. -/
theorem scratch_run (c : Dev nD) (t : Fin cfg1.N) (h3 : t.val % 4 = 3) (r o : Fin 1024) (i : Spec.SX.Idx)
    (h0 : (i 0).val = t.val / 16) (h1 : (i 1).val = t.val / 4 % 4 * 1024 + r.val) (h2 : (i 2).val = o.val) :
    (outsAt1 V c t.val t.isLt).2 (ix2 r o)
      = Spec.attendT (V c main_v2_0) (V c main_v2_1) (V c main_v2_2) (Ideal.ofBits .f32 0x3D000000#32) i := by
  obtain ⟨tv, ht⟩ := t
  obtain ⟨m, rfl⟩ : ∃ m, tv = m + 3 := ⟨tv - 3, by dsimp only at h3; omega⟩
  dsimp only at h0 h1 h3 ⊢
  have hN := N1
  obtain rfl : (⟨(i 2).val, (i 2).isLt⟩ : Fin 1024) = o := Fin.ext h2
  rw [attendT_eq_tiles, Fin.sum_univ_four]
  refine (scratch_step V c (m + 2) ht (by omega) ⟨(i 0).val, (i 0).isLt⟩ ⟨(i 1).val, (i 1).isLt⟩ 3 r ⟨(i 2).val, (i 2).isLt⟩
    (by show (i 0).val = _; omega) (by show (i 1).val = _; omega) (by show 3 = _; omega)).trans ?_
  refine congrArg (· + _) ?_
  refine (scratch_step V c (m + 1) (by omega) (by omega) ⟨(i 0).val, (i 0).isLt⟩ ⟨(i 1).val, (i 1).isLt⟩ 2 r ⟨(i 2).val, (i 2).isLt⟩
    (by show (i 0).val = _; omega) (by show (i 1).val = _; omega) (by show 2 = _; omega)).trans ?_
  refine congrArg (· + _) ?_
  refine (scratch_step V c m (by omega) (by omega) ⟨(i 0).val, (i 0).isLt⟩ ⟨(i 1).val, (i 1).isLt⟩ 1 r ⟨(i 2).val, (i 2).isLt⟩
    (by show (i 0).val = _; omega) (by show (i 1).val = _; omega) (by show 1 = _; omega)).trans ?_
  refine congrArg (· + _) ?_
  exact scratch_first V c m (by omega) (by omega) ⟨(i 0).val, (i 0).isLt⟩ ⟨(i 1).val, (i 1).isLt⟩ 0 r ⟨(i 2).val, (i 2).isLt⟩
    (by show (i 0).val = _; omega) (by show (i 1).val = _; omega) (by show 0 = _; omega)

/-- What a flushing point writes back is its block of the tile-by-tile result. -/
theorem flushed_out (c : Dev nD) (t : Fin cfg1.N) (hf : (cfg1.win 3).flush t = true) :
    (dat1 V c).flushed 3 t = ((cfg1.win 3).blk t).view.read (Elt Ideal)
      (Spec.attendT (V c main_v2_0) (V c main_v2_1) (V c main_v2_2) (Ideal.ofBits .f32 0x3D000000#32)) := by
  have h3 : t.val % 4 = 3 := (flush1_3 t).mp hf
  show (cfg1.win 3).cut (grid1.coords t) ((dat1 V c).after 3 t) = _
  rw [after1_3, out_C V c t h3]
  funext j
  obtain ⟨u, r, o, rfl⟩ : ∃ (u : Fin 1) (r o : Fin 1024), j = (ix3 u r o : S1x1024x1024.Idx) := ⟨j 0, j 1, j 2, eq_ix3 (n0 := 1) (n1 := 1024) (n2 := 1024) j⟩
  obtain rfl : u = 0 := Subsingleton.elim _ _
  rw [View.read_apply]
  show k1_pay3 (outsAt1 V c t.val t.isLt).2 (ix3 0 r o) = _
  rw [k1_pay3_apply]
  obtain ⟨-, -, -, -, -, -, -, -, -, e0, e1, e2⟩ := idx_facts1 t
  exact scratch_run V c t h3 r o _
    (by show win1_3.index t (0 : Fin 3) * 1 + 1 * 0 = _; rw [e0]; omega)
    (by show win1_3.index t (1 : Fin 3) * 1024 + 1 * r.val = _; rw [e1]; omega)
    (by show win1_3.index t (2 : Fin 3) * 1024 + 1 * o.val = _; rw [e2]; omega)

/-- An index of the result array is in point t's block iff each coordinate is in the block's range on its axis. -/
theorem mem_blk_out (t : Fin cfg1.N) (i : S8x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v3).slice (win1_3.rect t)).set ↔ _
  rw [View.set_slice_whole, Rect.mem_set_unit]
  exact Iff.rfl

/-- Row n of batch b lies in the block the fourth point of run (b, n / 1024) writes back. -/
theorem cover_out (i : S8x4096x1024.Idx) :
    ∃ t : Fin cfg1.N, (cfg1.win 3).flush t = true ∧ i ∈ ((cfg1.win 3).blk t).view.set := by
  have h0 : (i 0).val < 8 := (i 0).isLt
  have h1 : (i 1).val < 4096 := (i 1).isLt
  have h2 : (i 2).val < 1024 := (i 2).isLt
  have hN := N1
  have hlt : ((i 0).val * 4 + (i 1).val / 1024) * 4 + 3 < cfg1.N := by omega
  obtain ⟨-, -, -, -, -, -, -, -, -, e0, e1, e2⟩ := idx_facts1 ⟨_, hlt⟩
  dsimp only at e0 e1 e2
  refine ⟨⟨_, hlt⟩, (flush1_3 _).mpr (by dsimp only; omega), ?_⟩
  rw [mem_blk_out]
  intro a
  match a with
  | ⟨0, _⟩ => show win1_3.index ⟨_, hlt⟩ (0 : Fin 3) * 1 ≤ (i 0).val ∧ (i 0).val < win1_3.index ⟨_, hlt⟩ (0 : Fin 3) * 1 + 1; rw [e0]; omega
  | ⟨1, _⟩ => show win1_3.index ⟨_, hlt⟩ (1 : Fin 3) * 1024 ≤ (i 1).val ∧ (i 1).val < win1_3.index ⟨_, hlt⟩ (1 : Fin 3) * 1024 + 1024; rw [e1]; omega
  | ⟨2, _⟩ => show win1_3.index ⟨_, hlt⟩ (2 : Fin 3) * 1024 ≤ (i 2).val ∧ (i 2).val < win1_3.index ⟨_, hlt⟩ (2 : Fin 3) * 1024 + 1024; rw [e2]; omega

/-- The result array after the second region: the tile-by-tile sum of θ, φ, g as the region finds them. -/
theorem out_final (c : Dev nD) : (dat1 (F := Ideal) V c).arrAt 3 cfg1.N
    = Spec.attendT (V c main_v2_0) (V c main_v2_1) (V c main_v2_2) (Ideal.ofBits .f32 0x3D000000#32) :=
  (dat1 V c).arrAt_eq_of_cover 3 _ (flushed_out V c) cover_out

end Cert.KernelIdeal.Hand

end
-- ==== Proof.lean ====
/-
  Softmax-free self-attention against its jnp reference, as functions over the extended reals.
  With x[b,n,f] the activations and the three weight matrices Wθ, Wφ [256, 1024] and Wg [1024, 1024] stored as [out, in],
    θ = x·Wθᵀ,  φ = x·Wφᵀ,  g = x·Wgᵀ,   out[b,n,o] = Σ_m ((Σ_l θ[b,n,l]·φ[b,m,l])·κ)·g[b,m,o],   κ the f32 word 0x3D000000 (1/32) on both sides.
  The reference computes exactly that: five products and one scaling, m summed over all 4096 rows at once (`Spec.G`).
  The kernel stacks the three weight matrices into one [1536, 1024] array on the host, and in a first region multiplies each
  block of 512 rows of x against the whole stack once, writing columns 0–255, 256–511 and 512–1535 of the product out as θ, φ and g
  (`Spec.projAt` of `Spec.wcat`, which are the three separate products: `Spec.projAt_wcat_*`). A second region holds, for each
  batch b and each block of 1024 rows n, an accumulator that starts at zero and gains, for each of the four tiles of 1024 rows m in
  turn, ((θ_n·φ_mᵀ)·κ)·g_m; after the fourth tile the accumulator is written out (`Spec.attendT`). Summing over m tile by tile
  is summing at once (`Spec.attendT_eq_attend`): addition of extended reals is commutative and associative, 0 + a = a, and no
  other law is used — in particular no distributivity, so the precondition (every input finite) is never opened. A change of
  float format is the identity at this reading, so the kernel's roundings to bf16 do not appear.
  The three frames: each program runs to the end, faults nowhere and leaves its four argument arrays as launched. For the
  reference this is its run with the result dropped; for the kernel, at both readings, it is the run of its three segments
  (the host stretch that stacks and converts the weights, then the two regions), no segment of which writes an argument array.
  The idealization rewrote no operation, so there is nothing for `preserves` to state.
-/
import proofs.«135283_j26594437496900_1_alg».proof.Defs
import proofs.«135283_j26594437496900_1_alg».proof.Proof.Gen.Kernel
import proofs.«135283_j26594437496900_1_alg».proof.Proof.Gen.KernelIdeal
import proofs.«135283_j26594437496900_1_alg».proof.Proof.Gen.ReferenceIdeal
import proofs.«135283_j26594437496900_1_alg».proof.Proof.Gen.Pre_finite_inputs
import proofs.«135283_j26594437496900_1_alg».proof.Proof.Gen.ReferenceIdeal.Run
import proofs.«135283_j26594437496900_1_alg».proof.Proof.Gen.ReferenceIdeal.Read
import proofs.«135283_j26594437496900_1_alg».proof.Proof.Spec
import proofs.«135283_j26594437496900_1_alg».proof.Proof.RefValue
import proofs.«135283_j26594437496900_1_alg».proof.Proof.KRun
import proofs.«135283_j26594437496900_1_alg».proof.Proof.KiRun
import proofs.«135283_j26594437496900_1_alg».proof.Proof.KiHost
import proofs.«135283_j26594437496900_1_alg».proof.Proof.KiVal0
import proofs.«135283_j26594437496900_1_alg».proof.Proof.KiVal1

noncomputable section

open Idealize.ShloMosaic Idealize.ShloMosaic.TcCoe Idealize.SL.Sem

/-! ## What the kernel leaves in its result array, at the exact reading -/

namespace Cert.KernelIdeal.Hand

open Cert.KernelIdeal Cert.KernelIdeal.Gen

/-- The scale both programs multiply the scores by: the f32 word of 1/32. -/
abbrev κ : EReal := Ideal.ofBits .f32 0x3D000000#32

variable (m : (ℓ : Loc nD τ sig) → Buf (Elt Ideal) ℓ)

/-- After the first region, θ's array holds x against Wθ: rows 0–255 of the stack are Wθ. -/
theorem theta_arr (c : Dev nD) :
    V2 (F := Ideal) m c main_v2_0 = Cert.Spec.projL (m ((c : Thread nD τ).loc main_arg0)) (m ((c : Thread nD τ).loc main_arg1)) := by
  rw [show V2 (F := Ideal) m c main_v2_0 = (dat0 (F := Ideal) (V1 m) c).arrAt 2 cfg0.N from W2_arr m c 2, theta_final (V1 m) c,
    V1_main_arg0 m c, show V1 (F := Ideal) m c main_v1 = _ from wcat_eq m c, Cert.Spec.projAt_wcat_0]

/-- φ's array holds x against Wφ: rows 256–511 of the stack. -/
theorem phi_arr (c : Dev nD) :
    V2 (F := Ideal) m c main_v2_1 = Cert.Spec.projL (m ((c : Thread nD τ).loc main_arg0)) (m ((c : Thread nD τ).loc main_arg2)) := by
  rw [show V2 (F := Ideal) m c main_v2_1 = (dat0 (F := Ideal) (V1 m) c).arrAt 3 cfg0.N from W2_arr m c 3, phi_final (V1 m) c,
    V1_main_arg0 m c, show V1 (F := Ideal) m c main_v1 = _ from wcat_eq m c, Cert.Spec.projAt_wcat_256]

/-- g's array holds x against Wg: rows 512–1535 of the stack. -/
theorem g_arr (c : Dev nD) :
    V2 (F := Ideal) m c main_v2_2 = Cert.Spec.projG (m ((c : Thread nD τ).loc main_arg0)) (m ((c : Thread nD τ).loc main_arg3)) := by
  rw [show V2 (F := Ideal) m c main_v2_2 = (dat0 (F := Ideal) (V1 m) c).arrAt 4 cfg0.N from W2_arr m c 4, g_final (V1 m) c,
    V1_main_arg0 m c, show V1 (F := Ideal) m c main_v1 = _ from wcat_eq m c, Cert.Spec.projAt_wcat_512]

/-- After the second region the result array holds the tile-by-tile sum over θ, φ, g, which is the sum at once. -/
theorem result_arr (c : Dev nD) :
    W3 (F := Ideal) m c (Proc.devRef .tc main_v3)
      = Cert.Spec.G κ (m ((c : Thread nD τ).loc main_arg0)) (m ((c : Thread nD τ).loc main_arg1)) (m ((c : Thread nD τ).loc main_arg2)) (m ((c : Thread nD τ).loc main_arg3)) := by
  rw [show W3 (F := Ideal) m c (Proc.devRef .tc main_v3) = (dat1 (F := Ideal) (V2 m) c).arrAt 3 cfg1.N from W3_arr m c 3, out_final (V2 m) c,
    theta_arr m c, phi_arr m c, g_arr m c, Cert.Spec.attendT_eq_attend]
  rfl

end Cert.KernelIdeal.Hand

/-! ## The claims -/

namespace Cert.Proof

open Cert.KernelIdeal.Hand

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

/-- The reference has no kernel: its frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the four arguments both programs end with their result at `Spec.G` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G κ (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run_all (F := Ideal) m ρ)
    · exact (h c _ (mem_uc Cert.KernelIdeal.main_v3 (by decide))).trans (result_arr m c)
    · exact (h c _ (mem_uc Cert.KernelIdeal.main_arg0 (by decide))).trans (W3_main_arg0 m c)
    · exact (h c _ (mem_uc Cert.KernelIdeal.main_arg1 (by decide))).trans (W3_main_arg1 m c)
    · exact (h c _ (mem_uc Cert.KernelIdeal.main_arg2 (by decide))).trans (W3_main_arg2 m c)
    · exact (h c _ (mem_uc Cert.KernelIdeal.main_arg3 (by decide))).trans (W3_main_arg3 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v6_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
